-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x3D96D975#32 ((262144 / 3558985 : ℝ) : EReal)
  ∧ IdealRules.named_const.Statement Cert.KernelIdeal.κ "inv_temp" .f32 0x3D96D975#32 ((262144 / 3558985 : ℝ) : EReal)
  ∧ IdealRules.named_const.Statement Cert.KernelIdeal.κ "inv_temp" .f32 0x3D96D975#32 ((262144 / 3558985 : ℝ) : EReal)
  ∧ IdealRules.named_const.Statement Cert.KernelIdeal.κ "inv_temp" .f32 0x3D96D975#32 ((262144 / 3558985 : ℝ) : EReal)
  ∧ IdealRules.named_const.Statement Cert.KernelIdeal.κ "inv_temp" .f32 0x3D96D975#32 ((262144 / 3558985 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x32x40 : Shape := ⟨4, ![16, 128, 32, 40]⟩
abbrev S32x40x32x40 : Shape := ⟨4, ![32, 40, 32, 40]⟩
abbrev S128 : Shape := ⟨1, ![128]⟩
abbrev S_ : Shape := ⟨0, ![]⟩

class Facts : Prop where
  bcast_S_S16x128x32x40 : S_.BroadcastsInDim S16x128x32x40 (![] : Fin 0 → Fin S16x128x32x40.rank)
  reducesTo_S16x128x32x40_S_d0_1_2_3 : S16x128x32x40.ReducesTo [0, 1, 2, 3] S_
  h_S_ : 0 < S_.numel
  bcast_S_S32x40x32x40 : S_.BroadcastsInDim S32x40x32x40 (![] : Fin 0 → Fin S32x40x32x40.rank)
  reducesTo_S32x40x32x40_S_d0_1_2_3 : S32x40x32x40.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x128x32x40 .f32) (main_arg1 : FVec F S32x40x32x40 .f32) (main_arg2 : FVec F S128 .f32) (main_arg3 : FVec F S128 .f32) : IVec S_ 1 :=
  let main_v0 : FVec F S16x128x32x40 .f32 := Host.absf main_arg0
  let main_cst : FVec F S_ .f32 := constant S_ .f32 0x7F800000#32
  let main_v1 : FVec F S16x128x32x40 .f32 := broadcastInDim S16x128x32x40 ![] bcast_S_S16x128x32x40 main_cst
  let main_v2 : IVec S16x128x32x40 1 := cmpf .olt main_v0 main_v1
  let main_c : IVec S_ 1 := constantI S_ 1 1#1
  let main_v3 : IVec S_ 1 := (fun x v => Host.reduce IntOp.andi x v reducesTo_S16x128x32x40_S_d0_1_2_3 h_S_) main_v2 main_c
  let main_v4 : FVec F S32x40x32x40 .f32 := Host.absf main_arg1
  let main_cst_0 : FVec F S_ .f32 := constant S_ .f32 0x7F800000#32
  let main_v5 : FVec F S32x40x32x40 .f32 := broadcastInDim S32x40x32x40 ![] bcast_S_S32x40x32x40 main_cst_0
  let main_v6 : IVec S32x40x32x40 1 := cmpf .olt main_v4 main_v5
  let main_c_1 : IVec S_ 1 := constantI S_ 1 1#1
  let main_v7 : IVec S_ 1 := (fun x v => Host.reduce IntOp.andi x v reducesTo_S32x40x32x40_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x128x32x40 : Shape := ⟨4, ![16, 128, 32, 40]⟩
abbrev S32x40x32x40 : Shape := ⟨4, ![32, 40, 32, 40]⟩
abbrev S128 : Shape := ⟨1, ![128]⟩
abbrev S16x128x1280 : Shape := ⟨3, ![16, 128, 1280]⟩
abbrev S1280x1280 : Shape := ⟨2, ![1280, 1280]⟩
abbrev S128x1 : Shape := ⟨2, ![128, 1]⟩
abbrev S1x128x1280 : Shape := ⟨3, ![1, 128, 1280]⟩
abbrev S128x1280 : Shape := ⟨2, ![128, 1280]⟩
abbrev S1x128x256 : Shape := ⟨3, ![1, 128, 256]⟩
abbrev S128x256 : Shape := ⟨2, ![128, 256]⟩
abbrev S256x1280 : Shape := ⟨2, ![256, 1280]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S16x128x32x40, .f32⟩
  | .hbm, ⟨1, _⟩ => ⟨S32x40x32x40, .f32⟩
  | .hbm, ⟨2, _⟩ => ⟨S128, .f32⟩
  | .hbm, ⟨3, _⟩ => ⟨S128, .f32⟩
  | .hbm, ⟨4, _⟩ => ⟨S16x128x1280, .f32⟩
  | .hbm, ⟨5, _⟩ => ⟨S1280x1280, .f32⟩
  | .hbm, ⟨6, _⟩ => ⟨S128x1, .f32⟩
  | .hbm, ⟨7, _⟩ => ⟨S128x1, .f32⟩
  | .hbm, ⟨8, _⟩ => ⟨S16x128x1280, .f32⟩
  | .hbm, ⟨9, _⟩ => ⟨S16x128x32x40, .f32⟩
  | .local _ .vmem, ⟨0, _⟩ => ⟨S1x128x1280, .f32⟩
  | .local _ .vmem, ⟨1, _⟩ => ⟨S1x128x1280, .f32⟩
  | .local _ .vmem, ⟨2, _⟩ => ⟨S1280x1280, .f32⟩
  | .local _ .vmem, ⟨3, _⟩ => ⟨S128x1, .f32⟩
  | .local _ .vmem, ⟨4, _⟩ => ⟨S128x1, .f32⟩
  | .local _ .vmem, ⟨5, _⟩ => ⟨S1x128x1280, .f32⟩
  | .local _ .vmem, ⟨6, _⟩ => ⟨S1x128x1280, .f32⟩
  | _, _ => ⟨S16x128x32x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v2 : BitVec 32 := Scalar.muli c0_i32 c256_i32
  v2
def k0_off1 (c0_i32 : BitVec 32) : Fin 3 → Nat :=
  let c0_2 : Index := 0#32
  let c0_3 : Index := 0#32
  let c256_i32 : BitVec 32 := 256#32
  let v2 : BitVec 32 := Scalar.muli c0_i32 c256_i32
  let v3 : BitVec 32 := v2
  let v4 : Index := Scalar.indexCast v3
  ![0, 0, v4.toNat]
def k0_off2 (c0_i32 : BitVec 32) : Fin 2 → Nat :=
  let c256_i32 : BitVec 32 := 256#32
  let v2 : BitVec 32 := Scalar.muli c0_i32 c256_i32
  let v3 : BitVec 32 := v2
  let v17 : Index := Scalar.indexCast v3
  let c0_7 : Index := 0#32
  ![v17.toNat, 0]
def k0_mult2 : BitVec 32 :=
  let c1_i32 : BitVec 32 := 1#32
  let c256_i32_13 : BitVec 32 := 256#32
  let v33 : BitVec 32 := Scalar.muli c1_i32 c256_i32_13
  v33
def k0_mult3 : BitVec 32 :=
  let c2_i32 : BitVec 32 := 2#32
  let c256_i32_26 : BitVec 32 := 256#32
  let v64 : BitVec 32 := Scalar.muli c2_i32 c256_i32_26
  v64
def k0_mult4 : BitVec 32 :=
  let c3_i32 : BitVec 32 := 3#32
  let c256_i32_39 : BitVec 32 := 256#32
  let v95 : BitVec 32 := Scalar.muli c3_i32 c256_i32_39
  v95
def k0_mult5 : BitVec 32 :=
  let c4_i32 : BitVec 32 := 4#32
  let c256_i32_52 : BitVec 32 := 256#32
  let v126 : BitVec 32 := Scalar.muli c4_i32 c256_i32_52
  v126
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x128x32x40_S16x128x1280 : S16x128x32x40.ShapeCasts S16x128x1280
  shapeCasts_S32x40x32x40_S1280x1280 : S32x40x32x40.ShapeCasts S1280x1280
  shapeCasts_S128_S128x1 : S128.ShapeCasts S128x1
  inb_S1x128x1280_S1x128x1280_0_0_0 : ∀ a, (![0, 0, 0] : Fin 3 → Nat) a + S1x128x1280.size a ≤ S1x128x1280.size a
  h_S1x128x1280 : 0 < S1x128x1280.numel
  shapeCasts_S1x128x1280_S128x1280 : S1x128x1280.ShapeCasts S128x1280
  h_S1x128x256 : 0 < S1x128x256.numel
  shapeCasts_S1x128x256_S128x256 : S1x128x256.ShapeCasts S128x256
  reduces_S256x1280_S256 : S256x1280.Reduces [1] S256
  shapeCasts_S256_S256x1 : S256.ShapeCasts S256x1
  broadcasts_S256x1_S256x1280 : S256x1.Broadcasts S256x1280
  h_S256x1280 : 0 < S256x1280.numel
  shapeCasts_S256x1280_S256x1280 : S256x1280.ShapeCasts S256x1280
  shapeCasts_S128x256_S1x128x256 : S128x256.ShapeCasts S1x128x256
  reduces_S128x1280_S128 : S128x1280.Reduces [1] S128
  broadcasts_S128x1_S128x1280 : S128x1.Broadcasts S128x1280
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1280_S1x128x1280 : S128x1280.ShapeCasts S1x128x1280
  shapeCasts_S16x128x1280_S16x128x32x40 : S16x128x1280.ShapeCasts S16x128x32x40
  dot_S128x256_S128x1280_S256x1280_0_0_1_1_n_n_wf : DotDims.WF S128x256 S128x1280 S256x1280 [0] [0] [1] [1] [] []
  dot_S128x1280_S256x1280_S128x256_1_1_0_0_n_n_wf : DotDims.WF S128x1280 S256x1280 S128x256 [1] [1] [0] [0] [] []
  hrank0 : 0 < grid0.rank
  k0_mult1_dvd : 256 ∣ k0_mult1.toNat
  k0_off1_inb : ∀ (r : Fin 5), ∀ a, (k0_off1 (BitVec.ofNat 32 r.val)) a + S1x128x256.size a ≤ S1x128x1280.size a
  k0_off2_inb : ∀ (r : Fin 5), ∀ a, (k0_off2 (BitVec.ofNat 32 r.val)) a + S256x1280.size a ≤ S1280x1280.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1280.size a ≤ S16x128x1280.size a
  hwx0_0 : ∀ i : grid0.Coords, EltTy.bits .f32 = 32 ∨ (Rect.block (s := S16x128x1280) S1x128x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1280.size a ≤ S1280x1280.size a
  hwx0_1 : ∀ i : grid0.Coords, EltTy.bits .f32 = 32 ∨ (Rect.block (s := S1280x1280) S1280x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1280.size a ≤ S16x128x1280.size a
  hwx0_4 : ∀ i : grid0.Coords, EltTy.bits .f32 = 32 ∨ (Rect.block (s := S16x128x1280) S1x128x1280.size (cc0_transform_4 i) (hinb0_4 i)).WholeWords (EltTy.packing .f32)

variable [Facts₀]

def dot_S128x256_S128x1280_S256x1280_0_0_1_1_n_n : DotDims S128x256 S128x1280 S256x1280 where
  lhsContracting := [0]
  rhsContracting := [0]
  lhsNonContracting := [1]
  rhsNonContracting := [1]
  lhsBatch := []
  rhsBatch := []
  wf := dot_S128x256_S128x1280_S256x1280_0_0_1_1_n_n_wf
def dot_S128x1280_S256x1280_S128x256_1_1_0_0_n_n : DotDims S128x1280 S256x1280 S128x256 where
  lhsContracting := [1]
  rhsContracting := [1]
  lhsNonContracting := [0]
  rhsNonContracting := [0]
  lhsBatch := []
  rhsBatch := []
  wf := dot_S128x1280_S256x1280_S128x256_1_1_0_0_n_n_wf

abbrev win0_0 : Pipeline.Window sig grid0 :=
  Pipeline.Window.ofSpec (Memref.whole main_v0) S1x128x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x1280.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x32x40 : Shape := ⟨4, ![16, 128, 32, 40]⟩
abbrev S32x40x32x40 : Shape := ⟨4, ![32, 40, 32, 40]⟩
abbrev S128 : Shape := ⟨1, ![128]⟩
abbrev S16x128x1280 : Shape := ⟨3, ![16, 128, 1280]⟩
abbrev S16x1280x128 : Shape := ⟨3, ![16, 1280, 128]⟩
abbrev S16x1280x1280 : Shape := ⟨3, ![16, 1280, 1280]⟩
abbrev S_ : Shape := ⟨0, ![]⟩
abbrev S16x1280 : Shape := ⟨2, ![16, 1280]⟩
abbrev S16x1280x1 : Shape := ⟨3, ![16, 1280, 1]⟩
abbrev S1280x1280 : Shape := ⟨2, ![1280, 1280]⟩
abbrev S1x1280x1280 : Shape := ⟨3, ![1, 1280, 1280]⟩
abbrev S16x128 : Shape := ⟨2, ![16, 128]⟩
abbrev S16x128x1x1 : Shape := ⟨4, ![16, 128, 1, 1]⟩
abbrev S1x128x1x1 : Shape := ⟨4, ![1, 128, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S16x128x32x40, .f32⟩
  | .hbm, ⟨1, _⟩ => ⟨S32x40x32x40, .f32⟩
  | .hbm, ⟨2, _⟩ => ⟨S128, .f32⟩
  | .hbm, ⟨3, _⟩ => ⟨S128, .f32⟩
  | .hbm, ⟨4, _⟩ => ⟨S16x128x1280, .f32⟩
  | .hbm, ⟨5, _⟩ => ⟨S16x1280x128, .f32⟩
  | .hbm, ⟨6, _⟩ => ⟨S16x1280x1280, .f32⟩
  | .hbm, ⟨7, _⟩ => ⟨S_, .f32⟩
  | .hbm, ⟨8, _⟩ => ⟨S16x1280x1280, .f32⟩
  | .hbm, ⟨9, _⟩ => ⟨S16x1280x1280, .f32⟩
  | .hbm, ⟨10, _⟩ => ⟨S_, .f32⟩
  | .hbm, ⟨11, _⟩ => ⟨S16x1280, .f32⟩
  | .hbm, ⟨12, _⟩ => ⟨S_, .f32⟩
  | .hbm, ⟨13, _⟩ => ⟨S16x1280, .f32⟩
  | .hbm, ⟨14, _⟩ => ⟨S16x1280, .f32⟩
  | .hbm, ⟨15, _⟩ => ⟨S16x1280x1, .f32⟩
  | .hbm, ⟨16, _⟩ => ⟨S16x1280x1280, .f32⟩
  | .hbm, ⟨17, _⟩ => ⟨S16x1280x1280, .f32⟩
  | .hbm, ⟨18, _⟩ => ⟨S16x1280x1280, .f32⟩
  | .hbm, ⟨19, _⟩ => ⟨S_, .f32⟩
  | .hbm, ⟨20, _⟩ => ⟨S16x1280, .f32⟩
  | .hbm, ⟨21, _⟩ => ⟨S16x1280x1, .f32⟩
  | .hbm, ⟨22, _⟩ => ⟨S16x1280x1280, .f32⟩
  | .hbm, ⟨23, _⟩ => ⟨S16x1280x1280, .f32⟩
  | .hbm, ⟨24, _⟩ => ⟨S1280x1280, .f32⟩
  | .hbm, ⟨25, _⟩ => ⟨S1x1280x1280, .f32⟩
  | .hbm, ⟨26, _⟩ => ⟨S16x1280x1280, .f32⟩
  | .hbm, ⟨27, _⟩ => ⟨S16x1280x1280, .f32⟩
  | .hbm, ⟨28, _⟩ => ⟨S_, .f32⟩
  | .hbm, ⟨29, _⟩ => ⟨S16x1280, .f32⟩
  | .hbm, ⟨30, _⟩ => ⟨S16x1280x1, .f32⟩
  | .hbm, ⟨31, _⟩ => ⟨S_, .f32⟩
  | .hbm, ⟨32, _⟩ => ⟨S16x1280x1, .f32⟩
  | .hbm, ⟨33, _⟩ => ⟨S16x1280x1, .f32⟩
  | .hbm, ⟨34, _⟩ => ⟨S16x1280x1280, .f32⟩
  | .hbm, ⟨35, _⟩ => ⟨S16x1280x1280, .f32⟩
  | .hbm, ⟨36, _⟩ => ⟨S16x1280x128, .f32⟩
  | .hbm, ⟨37, _⟩ => ⟨S16x128x1280, .f32⟩
  | .hbm, ⟨38, _⟩ => ⟨S16x128x32x40, .f32⟩
  | .hbm, ⟨39, _⟩ => ⟨S_, .f32⟩
  | .hbm, ⟨40, _⟩ => ⟨S16x128, .f32⟩
  | .hbm, ⟨41, _⟩ => ⟨S16x128x1x1, .f32⟩
  | .hbm, ⟨42, _⟩ => ⟨S_, .f32⟩
  | .hbm, ⟨43, _⟩ => ⟨S16x128x1x1, .f32⟩
  | .hbm, ⟨44, _⟩ => ⟨S16x128x1x1, .f32⟩
  | .hbm, ⟨45, _⟩ => ⟨S_, .i32⟩
  | .hbm, ⟨46, _⟩ => ⟨S_, .f32⟩
  | .hbm, ⟨47, _⟩ => ⟨S16x128, .f32⟩
  | .hbm, ⟨48, _⟩ => ⟨S16x128x1x1, .f32⟩
  | .hbm, ⟨49, _⟩ => ⟨S_, .f32⟩
  | .hbm, ⟨50, _⟩ => ⟨S16x128x1x1, .f32⟩
  | .hbm, ⟨51, _⟩ => ⟨S16x128x1x1, .f32⟩
  | .hbm, ⟨52, _⟩ => ⟨S16x128x32x40, .f32⟩
  | .hbm, ⟨53, _⟩ => ⟨S16x128x32x40, .f32⟩
  | .hbm, ⟨54, _⟩ => ⟨S16x128x32x40, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16x128, .f32⟩
  | .hbm, ⟨60, _⟩ => ⟨S16x128x1x1, .f32⟩
  | .hbm, ⟨61, _⟩ => ⟨S16x128x1x1, .f32⟩
  | .hbm, ⟨62, _⟩ => ⟨S16x128x1x1, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S16x128x1x1, .f32⟩
  | .hbm, ⟨68, _⟩ => ⟨S16x128x1x1, .f32⟩
  | .hbm, ⟨69, _⟩ => ⟨S16x128x32x40, .f32⟩
  | .hbm, ⟨70, _⟩ => ⟨S16x128x32x40, .f32⟩
  | .hbm, ⟨71, _⟩ => ⟨S_, .f32⟩
  | .hbm, ⟨72, _⟩ => ⟨S16x128x1x1, .f32⟩
  | .hbm, ⟨73, _⟩ => ⟨S16x128x1x1, .f32⟩
  | .hbm, ⟨74, _⟩ => ⟨S16x128x1x1, .f32⟩
  | .hbm, ⟨75, _⟩ => ⟨S16x128x32x40, .f32⟩
  | .hbm, ⟨76, _⟩ => ⟨S16x128x32x40, .f32⟩
  | .hbm, ⟨77, _⟩ => ⟨S1x128x1x1, .f32⟩
  | .hbm, ⟨78, _⟩ => ⟨S16x128x32x40, .f32⟩
  | .hbm, ⟨79, _⟩ => ⟨S16x128x32x40, .f32⟩
  | .hbm, ⟨80, _⟩ => ⟨S1x128x1x1, .f32⟩
  | .hbm, ⟨81, _⟩ => ⟨S16x128x32x40, .f32⟩
  | .hbm, ⟨82, _⟩ => ⟨S16x128x32x40, .f32⟩
  | _, _ => ⟨S16x128x32x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_cst_3 : Ref sig .tc := ⟨.hbm, 63, rfl⟩
abbrev main_call0_v13 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_7 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]

class Facts₀ : Prop where
  shapeCasts_S16x128x32x40_S16x128x1280 : S16x128x32x40.ShapeCasts S16x128x1280
  transposes_S16x128x1280_S16x1280x128_0_2_1 : S16x128x1280.Transposes [0, 2, 1] S16x1280x128
  bcast_S_S16x1280x1280 : S_.BroadcastsInDim S16x1280x1280 (![] : Fin 0 → Fin S16x1280x1280.rank)
  reducesTo_S16x1280x1280_S16x1280_d2 : S16x1280x1280.ReducesTo [2] S16x1280
  h_S_ : 0 < S_.numel
  bcast_S_S16x1280 : S_.BroadcastsInDim S16x1280 (![] : Fin 0 → Fin S16x1280.rank)
  bcast_S16x1280_S16x1280x1_0_1 : S16x1280.BroadcastsInDim S16x1280x1 (![0, 1] : Fin 2 → Fin S16x1280x1.rank)
  bcast_S16x1280x1_S16x1280x1280_0_1_2 : S16x1280x1.BroadcastsInDim S16x1280x1280 (![0, 1, 2] : Fin 3 → Fin S16x1280x1280.rank)
  shapeCasts_S32x40x32x40_S1280x1280 : S32x40x32x40.ShapeCasts S1280x1280
  bcast_S1280x1280_S1x1280x1280_1_2 : S1280x1280.BroadcastsInDim S1x1280x1280 (![1, 2] : Fin 2 → Fin S1x1280x1280.rank)
  bcast_S1x1280x1280_S16x1280x1280_0_1_2 : S1x1280x1280.BroadcastsInDim S16x1280x1280 (![0, 1, 2] : Fin 3 → Fin S16x1280x1280.rank)
  bcast_S_S16x1280x1 : S_.BroadcastsInDim S16x1280x1 (![] : Fin 0 → Fin S16x1280x1.rank)
  transposes_S16x1280x128_S16x128x1280_0_2_1 : S16x1280x128.Transposes [0, 2, 1] S16x128x1280
  shapeCasts_S16x128x1280_S16x128x32x40 : S16x128x1280.ShapeCasts S16x128x32x40
  reducesTo_S16x128x32x40_S16x128_d2_3 : S16x128x32x40.ReducesTo [2, 3] S16x128
  bcast_S16x128_S16x128x1x1_0_1 : S16x128.BroadcastsInDim S16x128x1x1 (![0, 1] : Fin 2 → Fin S16x128x1x1.rank)
  bcast_S_S16x128x1x1 : S_.BroadcastsInDim S16x128x1x1 (![] : Fin 0 → Fin S16x128x1x1.rank)
  bcast_S16x128x1x1_S16x128x32x40_0_1_2_3 : S16x128x1x1.BroadcastsInDim S16x128x32x40 (![0, 1, 2, 3] : Fin 4 → Fin S16x128x32x40.rank)
  bcast_S128_S1x128x1x1_1 : S128.BroadcastsInDim S1x128x1x1 (![1] : Fin 1 → Fin S1x128x1x1.rank)
  bcast_S1x128x1x1_S16x128x32x40_0_1_2_3 : S1x128x1x1.BroadcastsInDim S16x128x32x40 (![0, 1, 2, 3] : Fin 4 → Fin S16x128x32x40.rank)
  dot_S16x1280x128_S16x1280x128_S16x1280x1280_2_2_1_1_0_0_wf : DotDims.WF S16x1280x128 S16x1280x128 S16x1280x1280 [2] [2] [1] [1] [0] [0]
  dot_S16x1280x1280_S16x1280x128_S16x1280x128_2_1_1_2_0_0_wf : DotDims.WF S16x1280x1280 S16x1280x128 S16x1280x128 [2] [1] [1] [2] [0] [0]

variable [Facts₀]

def dot_S16x1280x128_S16x1280x128_S16x1280x1280_2_2_1_1_0_0 : DotDims S16x1280x128 S16x1280x128 S16x1280x1280 where
  lhsContracting := [2]
  rhsContracting := [2]
  lhsNonContracting := [1]
  rhsNonContracting := [1]
  lhsBatch := [0]
  rhsBatch := [0]
  wf := dot_S16x1280x128_S16x1280x128_S16x1280x1280_2_2_1_1_0_0_wf
def dot_S16x1280x1280_S16x1280x128_S16x1280x128_2_1_1_2_0_0 : DotDims S16x1280x1280 S16x1280x128 S16x1280x128 where
  lhsContracting := [2]
  rhsContracting := [1]
  lhsNonContracting := [1]
  rhsNonContracting := [2]
  lhsBatch := [0]
  rhsBatch := [0]
  wf := dot_S16x1280x1280_S16x1280x128_S16x1280x128_2_1_1_2_0_0_wf

class Facts : Prop extends Facts₀ where

variable [Facts]
-- ==== Proof.Spec.lean ====
/-
  The mathematics both programs compute, written once, index by index, on the extended reals.

  One batch element is a matrix `xa c j` (128 channels, 1280 positions). For a query position with
  channel column `xi` and row `pr` of distance weights:

  * the similarity of the query with position `j` is `∑ c, xi c * xa c j`;
  * the KERNEL scales it by the named reciprocal temperature, subtracts the row maximum, exponentiates
    (`e j`), and weights position `j` by `e j * pr j / (∑ e * pr + tiny * ∑ e)`;
  * the REFERENCE divides the similarity by the temperature, takes the softmax `e j / ∑ e`, multiplies by
    `pr j` and renormalises by `∑ (softmax * pr) + tiny`;
  * both then aggregate `∑ j, xa c j * weight j` and normalise every channel over the 1280 positions
    (mean, biased variance, `rsqrt (var + eps)`, affine).

  The two weightings agree on finite inputs (multiply numerator and denominator by the positive softmax
  denominator); that is proved elsewhere. Here are only the definitions.
-/
import Idealize.ShloMosaic.PureOps.Ideal
import Idealize.ShloMosaic.Lib.ValueIdx

noncomputable section

namespace Cert.Spec

open Idealize.ShloMosaic Idealize.ShloMosaic.ValueIdx

/-! ## The literals, as the words the programs carry -/

/-- The kernel's reciprocal temperature, at the value its name denotes. -/
def invTemp : EReal := ((262144 / 3558985 : ℝ) : EReal)
/-- The reference's temperature `1.2 * sqrt 128` as the f32 it prints. -/
def temp : EReal := Ideal.ofBits .f32 0x41593924#32
/-- The initial value of a running maximum. -/
def negInf : EReal := Ideal.ofBits .f32 0xFF800000#32
/-- The `1e-8` guard of the renormalisation. -/
def tiny : EReal := Ideal.ofBits .f32 0x322BCC77#32
/-- The number of positions, `1280.0`. -/
def count : EReal := Ideal.ofBits .f32 0x44A00000#32
/-- The `1e-5` guard under the reciprocal square root. -/
def eps : EReal := Ideal.ofBits .f32 0x3727C5AC#32

/-! ## One query row -/

section Row

variable (xa : Fin 128 → Fin 1280 → EReal) (xi : Fin 128 → EReal) (pr : Fin 1280 → EReal)

/-- Similarity of the query with position `j`. -/
def sim (j : Fin 1280) : EReal := ∑ c : Fin 128, xi c * xa c j

/-! The kernel's weighting. -/

def logitK (j : Fin 1280) : EReal := sim xa xi j * invTemp
def maxK : EReal := (Finset.univ : Finset (Fin 1280)).fold max negInf (logitK xa xi)
def expK (j : Fin 1280) : EReal := Ideal.exp (logitK xa xi j - maxK xa xi)
def sumK : EReal := ∑ j : Fin 1280, expK xa xi j
def twK (j : Fin 1280) : EReal := expK xa xi j * pr j
def denK : EReal := (∑ j : Fin 1280, twK xa xi pr j) + tiny * sumK xa xi
def wK (j : Fin 1280) : EReal := Ideal.div (twK xa xi pr j) (denK xa xi pr)
/-- The kernel's aggregate of channel `c` at the query. -/
def aggK (c : Fin 128) : EReal := ∑ j : Fin 1280, xa c j * wK xa xi pr j

/-! The reference's weighting. -/

def logitR (j : Fin 1280) : EReal := Ideal.div (sim xa xi j) temp
def maxR : EReal := max negInf ((Finset.univ : Finset (Fin 1280)).fold max negInf (logitR xa xi))
def expR (j : Fin 1280) : EReal := Ideal.exp (logitR xa xi j - maxR xa xi)
def sumR : EReal := ∑ j : Fin 1280, expR xa xi j
def attR (j : Fin 1280) : EReal := Ideal.div (expR xa xi j) (sumR xa xi)
def w0R (j : Fin 1280) : EReal := attR xa xi j * pr j
def denR : EReal := (∑ j : Fin 1280, w0R xa xi pr j) + tiny
def wR (j : Fin 1280) : EReal := Ideal.div (w0R xa xi pr j) (denR xa xi pr)
/-- The reference's aggregate of channel `c` at the query. -/
def aggR (c : Fin 128) : EReal := ∑ j : Fin 1280, wR xa xi pr j * xa c j

end Row

/-! ## The normalisation of one batch element -/

section Norm

variable (A : Fin 128 → Fin 1280 → EReal) (ga ba : Fin 128 → EReal)

def mean (c : Fin 128) : EReal := Ideal.div (∑ q : Fin 1280, A c q) count
def var (c : Fin 128) : EReal :=
  Ideal.div (∑ q : Fin 1280, (A c q - mean A c) * (A c q - mean A c)) count
def norm (c : Fin 128) (q : Fin 1280) : EReal :=
  (A c q - mean A c) * Ideal.rsqrt (var A c + eps) * ga c + ba c

end Norm

/-! ## One batch element, whole -/

/-- The kernel's output for one batch element: channel `c`, position `q`. -/
def outKb (xa : Fin 128 → Fin 1280 → EReal) (pa : Fin 1280 → Fin 1280 → EReal) (ga ba : Fin 128 → EReal)
    (c : Fin 128) (q : Fin 1280) : EReal :=
  norm (fun c' i => aggK xa (fun d => xa d i) (pa i) c') ga ba c q

/-- The reference's output for one batch element. -/
def outRb (xa : Fin 128 → Fin 1280 → EReal) (pa : Fin 1280 → Fin 1280 → EReal) (ga ba : Fin 128 → EReal)
    (c : Fin 128) (q : Fin 1280) : EReal :=
  norm (fun c' i => aggR xa (fun d => xa d i) (pa i) c') ga ba c q

/-! ## The four-dimensional arrays -/

abbrev SX : Shape := ⟨4, ![16, 128, 32, 40]⟩
abbrev SP : Shape := ⟨4, ![32, 40, 32, 40]⟩
abbrev SG : Shape := ⟨1, ![128]⟩

/-- Row and column of a flattened position `q = 40 * h + w`. -/
def hOf (q : Fin 1280) : Fin 32 := ⟨q.val / 40, by have := q.isLt; omega⟩
def wOf (q : Fin 1280) : Fin 40 := ⟨q.val % 40, Nat.mod_lt _ (by norm_num)⟩
def posOf (h : Fin 32) (w : Fin 40) : Fin 1280 := ⟨40 * h.val + w.val, by have := h.isLt; have := w.isLt; omega⟩

theorem hOf_posOf (h : Fin 32) (w : Fin 40) : hOf (posOf h w) = h := by
  apply Fin.ext; simp only [hOf, posOf]; have := w.isLt; omega
theorem wOf_posOf (h : Fin 32) (w : Fin 40) : wOf (posOf h w) = w := by
  apply Fin.ext; simp only [wOf, posOf]; have := w.isLt; omega
theorem posOf_hOf_wOf (q : Fin 1280) : posOf (hOf q) (wOf q) = q := by
  apply Fin.ext; simp only [hOf, wOf, posOf]; omega

/-- Batch element `b` of the input as a channel × position matrix. -/
def xAt (X : SX.Idx → EReal) (b : Fin 16) : Fin 128 → Fin 1280 → EReal :=
  fun c q => X (ix4 b c (hOf q) (wOf q))
/-- The distance weights as a position × position matrix. -/
def pAt (P : SP.Idx → EReal) : Fin 1280 → Fin 1280 → EReal :=
  fun i j => P (ix4 (hOf i) (wOf i) (hOf j) (wOf j))
/-- A per-channel vector. -/
def gAt (G : SG.Idx → EReal) : Fin 128 → EReal := fun c => G (ix1 c)

/-- The kernel's result array. -/
def outK (X : SX.Idx → EReal) (P : SP.Idx → EReal) (G B : SG.Idx → EReal) : SX.Idx → EReal :=
  fun i => outKb (xAt X (i 0)) (pAt P) (gAt G) (gAt B) (i 1) (posOf (i 2) (i 3))

/-- The reference's result array. -/
def outR (X : SX.Idx → EReal) (P : SP.Idx → EReal) (G B : SG.Idx → EReal) : SX.Idx → EReal :=
  fun i => outRb (xAt X (i 0)) (pAt P) (gAt G) (gAt B) (i 1) (posOf (i 2) (i 3))

end Cert.Spec

end
-- ==== Proof.KRead.lean ====
/-
  One strip of the kernel body read at an index: for 256 query positions the similarities with every
  position, the row maxima, the exponentials, the fused renormalisation and the aggregate.
-/
import proofs.«406174_j72584947303115_3_alg».proof.Proof.Gen.KernelIdeal.Skeleton
import proofs.«406174_j72584947303115_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Idealize.ShloMosaic Idealize.ShloMosaic.ValueIdx Cert.KernelIdeal Cert.KernelIdeal.Gen

/-! ## The similarity product: axis 0 of both operands contracted -/

theorem simLhs_0 (j : S256x1280.Idx) (k : dot_S128x256_S128x1280_S256x1280_0_0_1_1_n_n.contr.Idx) :
    (dot_S128x256_S128x1280_S256x1280_0_0_1_1_n_n.lhsIdx j k (0 : Fin 2)).val = (k ⟨0, Nat.one_pos⟩).val :=
  DotDims.lhsIdx_val_of_single _ rfl j k

theorem simLhs_1 (j : S256x1280.Idx) (k : dot_S128x256_S128x1280_S256x1280_0_0_1_1_n_n.contr.Idx) :
    (dot_S128x256_S128x1280_S256x1280_0_0_1_1_n_n.lhsIdx j k (1 : Fin 2)).val = (j 0).val := by
  unfold DotDims.lhsIdx
  rw [dif_neg (show ¬ (1 : Fin S128x256.rank) ∈ dot_S128x256_S128x1280_S256x1280_0_0_1_1_n_n.lhsBatch from List.not_mem_nil),
    dif_pos (show (1 : Fin S128x256.rank) ∈ dot_S128x256_S128x1280_S256x1280_0_0_1_1_n_n.lhsNonContracting from List.mem_singleton.mpr rfl)]
  rfl

theorem simRhs_0 (j : S256x1280.Idx) (k : dot_S128x256_S128x1280_S256x1280_0_0_1_1_n_n.contr.Idx) :
    (dot_S128x256_S128x1280_S256x1280_0_0_1_1_n_n.rhsIdx j k (0 : Fin 2)).val = (k ⟨0, Nat.one_pos⟩).val :=
  DotDims.rhsIdx_val_of_single _ rfl j k

theorem simRhs_1 (j : S256x1280.Idx) (k : dot_S128x256_S128x1280_S256x1280_0_0_1_1_n_n.contr.Idx) :
    (dot_S128x256_S128x1280_S256x1280_0_0_1_1_n_n.rhsIdx j k (1 : Fin 2)).val = (j 1).val := by
  unfold DotDims.rhsIdx
  rw [dif_neg (show ¬ (1 : Fin S128x1280.rank) ∈ dot_S128x256_S128x1280_S256x1280_0_0_1_1_n_n.rhsBatch from List.not_mem_nil),
    dif_pos (show (1 : Fin S128x1280.rank) ∈ dot_S128x256_S128x1280_S256x1280_0_0_1_1_n_n.rhsNonContracting from List.mem_singleton.mpr rfl)]
  rfl

/-- The similarities of 256 queries with every position: entry `(r, j)` sums over the channels. -/
theorem sim_apply (a : FVec Ideal S128x256 .f32) (b : FVec Ideal S128x1280 .f32) (r : Fin 256) (j : Fin 1280) :
    matmul dot_S128x256_S128x1280_S256x1280_0_0_1_1_n_n none a b (constant (F := Ideal) S256x1280 .f32 0x00000000#32) (ix2 r j)
      = ∑ c : Fin 128, a (ix2 c r) * b (ix2 c j) := by
  refine (Ideal.matmul_constant_zero_apply dot_S128x256_S128x1280_S256x1280_0_0_1_1_n_n none a b (ix2 r j)).trans ?_
  refine (Equiv.sum_comp (contrEquiv1 dot_S128x256_S128x1280_S256x1280_0_0_1_1_n_n 128 rfl rfl).symm _).symm.trans ?_
  refine Finset.sum_congr rfl fun c _ => ?_
  have hk := contrEquiv1_symm_val dot_S128x256_S128x1280_S256x1280_0_0_1_1_n_n 128 rfl rfl c
  have hl : dot_S128x256_S128x1280_S256x1280_0_0_1_1_n_n.lhsIdx (ix2 r j)
      ((contrEquiv1 dot_S128x256_S128x1280_S256x1280_0_0_1_1_n_n 128 rfl rfl).symm c) = ix2 c r :=
    funext fun ax => Fin.ext (by
      match ax with
      | ⟨0, _⟩ => exact (simLhs_0 _ _).trans hk
      | ⟨1, _⟩ => exact simLhs_1 _ _)
  have hr : dot_S128x256_S128x1280_S256x1280_0_0_1_1_n_n.rhsIdx (ix2 r j)
      ((contrEquiv1 dot_S128x256_S128x1280_S256x1280_0_0_1_1_n_n 128 rfl rfl).symm c) = ix2 c j :=
    funext fun ax => Fin.ext (by
      match ax with
      | ⟨0, _⟩ => exact (simRhs_0 _ _).trans hk
      | ⟨1, _⟩ => exact simRhs_1 _ _)
  rw [hl, hr]

/-! ## The keepdims column forms -/

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions -/

/-- The row of a `[256, 1280]` array that a reduction over axis 1 folds at `r`. -/
theorem row_lift (src : FVec Ideal S256x1280 .f32) (h : S256x1280.Reduces [1] S256) (r : Fin 256) :
    (src ∘ h.lift (ix1 r) : Fin 1280 → EReal) = fun j => src (ix2 r j) :=
  funext fun j => congrArg src (funext fun ax => Fin.ext (by
    match ax with
    | ⟨0, _⟩ => rfl
    | ⟨1, _⟩ => rfl))

/-- A row maximum: the fold of `max` from `-∞` over the row. -/
theorem rowMax_apply (src : FVec Ideal S256x1280 .f32) (h : S256x1280.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = (Finset.univ : Finset (Fin 1280)).fold max Cert.Spec.negInf (fun j => src (ix2 r j)) :=
  (Ideal.multiReduction_maximumf_single src _ h hφ hacc (ix1 r)).trans
    (congrArg ((Finset.univ : Finset (Fin 1280)).fold max Cert.Spec.negInf) (row_lift src h r))

/-- A row sum. -/
theorem rowSum_apply (src : FVec Ideal S256x1280 .f32) (h : S256x1280.Reduces [1] S256) (hφ : FKind.Formats .f32)
    (hacc : (0x00000000#32 : BitVec 32) = FKind.add.neutral .f32 hφ) (r : Fin 256) :
    multiReduction .add [1] S256 src 0x00000000#32 h hφ hacc (ix1 r) = ∑ j : Fin 1280, src (ix2 r j) :=
  (Ideal.multiReduction_add_single src _ h hφ hacc (ix1 r)).trans
    (congrArg (fun f : Fin 1280 → EReal => ∑ j, f j) (row_lift src h r))

/-! ## The aggregate product: axis 1 of both operands contracted -/

theorem aggLhs_0 (j : S128x256.Idx) (k : dot_S128x1280_S256x1280_S128x256_1_1_0_0_n_n.contr.Idx) :
    (dot_S128x1280_S256x1280_S128x256_1_1_0_0_n_n.lhsIdx j k (0 : Fin 2)).val = (j 0).val := by
  unfold DotDims.lhsIdx
  rw [dif_neg (show ¬ (0 : Fin S128x1280.rank) ∈ dot_S128x1280_S256x1280_S128x256_1_1_0_0_n_n.lhsBatch from List.not_mem_nil),
    dif_pos (show (0 : Fin S128x1280.rank) ∈ dot_S128x1280_S256x1280_S128x256_1_1_0_0_n_n.lhsNonContracting from List.mem_singleton.mpr rfl)]
  rfl

theorem aggLhs_1 (j : S128x256.Idx) (k : dot_S128x1280_S256x1280_S128x256_1_1_0_0_n_n.contr.Idx) :
    (dot_S128x1280_S256x1280_S128x256_1_1_0_0_n_n.lhsIdx j k (1 : Fin 2)).val = (k ⟨0, Nat.one_pos⟩).val :=
  DotDims.lhsIdx_val_of_single _ rfl j k

theorem aggRhs_0 (j : S128x256.Idx) (k : dot_S128x1280_S256x1280_S128x256_1_1_0_0_n_n.contr.Idx) :
    (dot_S128x1280_S256x1280_S128x256_1_1_0_0_n_n.rhsIdx j k (0 : Fin 2)).val = (j 1).val := by
  unfold DotDims.rhsIdx
  rw [dif_neg (show ¬ (0 : Fin S256x1280.rank) ∈ dot_S128x1280_S256x1280_S128x256_1_1_0_0_n_n.rhsBatch from List.not_mem_nil),
    dif_pos (show (0 : Fin S256x1280.rank) ∈ dot_S128x1280_S256x1280_S128x256_1_1_0_0_n_n.rhsNonContracting from List.mem_singleton.mpr rfl)]
  rfl

theorem aggRhs_1 (j : S128x256.Idx) (k : dot_S128x1280_S256x1280_S128x256_1_1_0_0_n_n.contr.Idx) :
    (dot_S128x1280_S256x1280_S128x256_1_1_0_0_n_n.rhsIdx j k (1 : Fin 2)).val = (k ⟨0, Nat.one_pos⟩).val :=
  DotDims.rhsIdx_val_of_single _ rfl j k

/-- The aggregate of 256 queries: entry `(cc, r)` sums over the positions. -/
theorem agg_apply (a : FVec Ideal S128x1280 .f32) (b : FVec Ideal S256x1280 .f32) (cc : Fin 128) (r : Fin 256) :
    matmul dot_S128x1280_S256x1280_S128x256_1_1_0_0_n_n none a b (constant (F := Ideal) S128x256 .f32 0x00000000#32) (ix2 cc r)
      = ∑ j : Fin 1280, a (ix2 cc j) * b (ix2 r j) := by
  refine (Ideal.matmul_constant_zero_apply dot_S128x1280_S256x1280_S128x256_1_1_0_0_n_n none a b (ix2 cc r)).trans ?_
  refine (Equiv.sum_comp (contrEquiv1 dot_S128x1280_S256x1280_S128x256_1_1_0_0_n_n 1280 rfl rfl).symm _).symm.trans ?_
  refine Finset.sum_congr rfl fun j _ => ?_
  have hk := contrEquiv1_symm_val dot_S128x1280_S256x1280_S128x256_1_1_0_0_n_n 1280 rfl rfl j
  have hl : dot_S128x1280_S256x1280_S128x256_1_1_0_0_n_n.lhsIdx (ix2 cc r)
      ((contrEquiv1 dot_S128x1280_S256x1280_S128x256_1_1_0_0_n_n 1280 rfl rfl).symm j) = ix2 cc j :=
    funext fun ax => Fin.ext (by
      match ax with
      | ⟨0, _⟩ => exact aggLhs_0 _ _
      | ⟨1, _⟩ => exact (aggLhs_1 _ _).trans hk)
  have hr : dot_S128x1280_S256x1280_S128x256_1_1_0_0_n_n.rhsIdx (ix2 cc r)
      ((contrEquiv1 dot_S128x1280_S256x1280_S128x256_1_1_0_0_n_n 1280 rfl rfl).symm j) = ix2 r j :=
    funext fun ax => Fin.ext (by
      match ax with
      | ⟨0, _⟩ => exact aggRhs_0 _ _
      | ⟨1, _⟩ => exact (aggRhs_1 _ _).trans hk)
  rw [hl, hr]

/-! ## The strip's stages, as the payload composes them -/

/-- The named reciprocal temperature denotes its rational at the extended reals. -/
theorem invTemp_eq :
    Named.named (F := Ideal) Cert.KernelIdeal.κ "inv_temp" (φ := .f32) 0x3D96D975#32 = Cert.Spec.invTemp :=
  IdealRules.named_const.ideal_named_scalar _ _ _ _ rfl

/-- The scaled similarities of the strip's 256 queries with every position. -/
def kLogit (v1 : FVec Ideal S128x1280 .f32) (v5 : Vec Ideal S1x128x256 .f32) : FVec Ideal S256x1280 .f32 :=
  mulf (matmul dot_S128x256_S128x1280_S256x1280_0_0_1_1_n_n none
      (shapeCast S128x256 v5 shapeCasts_S1x128x256_S128x256 : FVec Ideal S128x256 .f32) v1
      (constant S256x1280 .f32 0x00000000#32))
    (broadcast S256x1280 (Named.named κ "inv_temp" 0x3D96D975#32))

/-- The exponentials of the logits less their row maxima. -/
def kExp (L : FVec Ideal S256x1280 .f32) : FVec Ideal S256x1280 .f32 :=
  exp (subf L (broadcastTo S256x1280
    (shapeCast S256x1 (multiReduction .maximumf [1] S256 L 0xFF800000#32 reduces_S256x1280_S256 (.inl rfl) rfl) shapeCasts_S256_S256x1)
    broadcasts_S256x1_S256x1280))

/-- The row sums, kept as a column. -/
def kSumCol (E : FVec Ideal S256x1280 .f32) : FVec Ideal S256x1 .f32 :=
  shapeCast S256x1 (multiReduction .add [1] S256 E 0x00000000#32 reduces_S256x1280_S256 (.inl rfl) rfl) shapeCasts_S256_S256x1

/-- The fused renormalisation: `e * p / (∑ e * p + tiny * ∑ e)`, row by row. -/
def kWeight (E P : FVec Ideal S256x1280 .f32) : FVec Ideal S256x1280 .f32 :=
  divf (mulf E P) (broadcastTo S256x1280
    (addf (kSumCol (mulf E P)) (mulf (broadcast S256x1 (Scalar.ofBits .f32 0x322BCC77#32)) (kSumCol E)))
    broadcasts_S256x1_S256x1280)

/-- The strip payload is the aggregate product of the keys with those weights, under a unit axis. -/
theorem pay4_eq (v1 : FVec Ideal S128x1280 .f32) (v5 : Vec Ideal S1x128x256 .f32) (v18 : Vec Ideal S256x1280 .f32) :
    k0_pay4 (F := Ideal) v1 v5 v18
      = shapeCast S1x128x256
          (matmul dot_S128x1280_S256x1280_S128x256_1_1_0_0_n_n none v1
            (kWeight (kExp (kLogit v1 v5)) (shapeCast S256x1280 v18 shapeCasts_S256x1280_S256x1280 : FVec Ideal S256x1280 .f32))
            (constant S128x256 .f32 0x00000000#32))
          shapeCasts_S128x256_S1x128x256 := rfl

theorem kLogit_apply (v1 : FVec Ideal S128x1280 .f32) (v5 : Vec Ideal S1x128x256 .f32) (r : Fin 256) (j : Fin 1280) :
    kLogit v1 v5 (ix2 r j)
      = Cert.Spec.logitK (fun c j => v1 (ix2 c j)) (fun c => v5 (ix3 0 c r)) j := by
  unfold kLogit Cert.Spec.logitK Cert.Spec.sim
  refine (mulf_apply _ _ _).trans ?_
  refine congrArg₂ (· * ·) ((sim_apply _ _ r j).trans ?_) ((broadcast_apply _ _).trans invTemp_eq)
  exact Finset.sum_congr rfl fun c _ => congrArg (· * v1 (ix2 c j)) (shapeCast_1ab_ab_apply v5 _ c r)

theorem kExp_apply (L : FVec Ideal S256x1280 .f32) (r : Fin 256) (j : Fin 1280) :
    kExp L (ix2 r j)
      = Ideal.exp (L (ix2 r j) - (Finset.univ : Finset (Fin 1280)).fold max Cert.Spec.negInf (fun j => L (ix2 r j))) := by
  unfold kExp
  show Ideal.exp (L (ix2 r j) - _) = _
  refine congrArg (fun m => Ideal.exp (L (ix2 r j) - m)) ?_
  refine (broadcastTo_a1_ab_apply _ _ r j).trans ?_
  refine (shapeCast_a_a1_apply _ _ r 0).trans ?_
  exact rowMax_apply L _ _ _ r

theorem kSumCol_apply (E : FVec Ideal S256x1280 .f32) (r : Fin 256) :
    kSumCol E (ix2 r (0 : Fin 1)) = ∑ j : Fin 1280, E (ix2 r j) :=
  (shapeCast_a_a1_apply _ _ r 0).trans (rowSum_apply E _ _ _ r)

theorem kWeight_apply (E P : FVec Ideal S256x1280 .f32) (r : Fin 256) (j : Fin 1280) :
    kWeight E P (ix2 r j)
      = Ideal.div (E (ix2 r j) * P (ix2 r j))
          ((∑ j : Fin 1280, E (ix2 r j) * P (ix2 r j)) + Cert.Spec.tiny * ∑ j : Fin 1280, E (ix2 r j)) := by
  unfold kWeight
  refine (divf_apply _ _ _).trans ?_
  refine congrArg (Ideal.div (E (ix2 r j) * P (ix2 r j))) ?_
  refine (broadcastTo_a1_ab_apply _ _ r j).trans ?_
  refine (addf_apply _ _ _).trans ?_
  refine congrArg₂ (· + ·) ((kSumCol_apply _ r).trans rfl) ?_
  refine (mulf_apply _ _ _).trans ?_
  exact congrArg₂ (· * ·) rfl (kSumCol_apply E r)

/-- One strip: channel `cc` of the aggregate at the strip's query row `r`. -/
theorem strip_apply (v1 : FVec Ideal S128x1280 .f32) (v5 : Vec Ideal S1x128x256 .f32) (v18 : Vec Ideal S256x1280 .f32)
    (cc : Fin 128) (r : Fin 256) :
    k0_pay4 (F := Ideal) v1 v5 v18 (ix3 0 cc r)
      = Cert.Spec.aggK (fun c j => v1 (ix2 c j)) (fun c => v5 (ix3 0 c r)) (fun j => v18 (ix2 r j)) cc := by
  refine (congrFun (pay4_eq v1 v5 v18) _).trans ?_
  refine (shapeCast_ab_1ab_apply _ _ (0 : Fin 1) cc r).trans ?_
  refine (agg_apply _ _ cc r).trans ?_
  have hE : ∀ j : Fin 1280, kExp (kLogit v1 v5) (ix2 r j)
      = Cert.Spec.expK (fun c j => v1 (ix2 c j)) (fun c => v5 (ix3 0 c r)) j := fun j => by
    refine (kExp_apply _ r j).trans ?_
    unfold Cert.Spec.expK Cert.Spec.maxK
    have hL : (fun j => kLogit v1 v5 (ix2 r j))
        = Cert.Spec.logitK (fun c j => v1 (ix2 c j)) (fun c => v5 (ix3 0 c r)) := funext fun j => kLogit_apply v1 v5 r j
    rw [hL, kLogit_apply]
  have hP : ∀ j : Fin 1280, shapeCast S256x1280 v18 shapeCasts_S256x1280_S256x1280 (ix2 r j) = v18 (ix2 r j) :=
    fun j => congrFun (shapeCast_self v18 _) _
  unfold Cert.Spec.aggK
  refine Finset.sum_congr rfl fun j _ => congrArg (v1 (ix2 cc j) * ·) ?_
  refine (kWeight_apply _ _ r j).trans ?_
  unfold Cert.Spec.wK Cert.Spec.denK Cert.Spec.twK Cert.Spec.sumK
  simp only [hE, hP]

end Cert.KernelIdeal.KRead

end
-- ==== Proof.KReadTail.lean ====
/-
  The kernel body's closing normalisation read at an index: per channel the mean and the biased variance
  over the block's 1280 positions, the reciprocal square root, the affine map.

  Each operation that moves values between indices (dropping or adding the unit axis, the sum along the
  positions, a vector set as a column, a column spread along the positions) is first read at explicit
  coordinates; the pointwise operations are read by definition. The theorem then follows the payload from
  its last operation inwards: shift, scale, deviation times reciprocal square root, and inside the root the
  mean of the squared deviations plus the guard.
-/
import proofs.«406174_j72584947303115_3_alg».proof.Proof.Gen.KernelIdeal.Skeleton
import proofs.«406174_j72584947303115_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Idealize.ShloMosaic Idealize.ShloMosaic.ValueIdx Cert.KernelIdeal Cert.KernelIdeal.Gen

/-- The block with its unit axis dropped, read at (c, q). -/
private theorem drop_apply (x : Vec Ideal S1x128x1280 .f32) (c : Fin 128) (q : Fin 1280) :
    shapeCast S128x1280 x shapeCasts_S1x128x1280_S128x1280 (ix2 c q) = x (ix3 0 c q) :=
  shapeCast_1ab_ab_apply x shapeCasts_S1x128x1280_S128x1280 c q

/-- The unit axis put back. -/
private theorem add_apply (x : FVec Ideal S128x1280 .f32) (u : Fin 1) (c : Fin 128) (q : Fin 1280) :
    shapeCast S1x128x1280 x shapeCasts_S128x1280_S1x128x1280 (ix3 u c q) = x (ix2 c q) :=
  shapeCast_ab_1ab_apply x shapeCasts_S128x1280_S1x128x1280 u c q

/-- A sum along the positions, read at a channel. -/
private theorem rowsum_apply (x : FVec Ideal S128x1280 .f32) (c : Fin 128) :
    multiReduction (F := Ideal) .add [1] S128 x 0x00000000#32 reduces_S128x1280_S128 (.inl rfl) rfl (ix1 c)
      = ∑ k : Fin 1280, x (ix2 c k) := by
  refine (Ideal.multiReduction_add_single x 0x00000000#32 reduces_S128x1280_S128 (.inl rfl) rfl (ix1 c)).trans ?_
  refine Finset.sum_congr rfl fun k _ => congrArg x ?_
  funext a
  match a with
  | ⟨0, _⟩ => rfl
  | ⟨1, _⟩ => rfl

/-- A vector as a one-column matrix. -/
private theorem col_apply (x : FVec Ideal S128 .f32) (c : Fin 128) (u : Fin 1) :
    shapeCast S128x1 x shapeCasts_S128_S128x1 (ix2 c u) = x (ix1 c) :=
  shapeCast_apply x shapeCasts_S128_S128x1 _ _ (by
    have hu : u.val = 0 := by omega
    rw [Shape.rowMajor_val_two, Shape.rowMajor_val_one]
    show c.val = c.val * 1 + u.val
    rw [hu, Nat.mul_one, Nat.add_zero])

/-- A one-column matrix spread along the positions. -/
private theorem spread_apply (x : FVec Ideal S128x1 .f32) (c : Fin 128) (q : Fin 1280) :
    broadcastTo S128x1280 x broadcasts_S128x1_S128x1280 (ix2 c q) = x (ix2 c 0) := by
  refine broadcastTo_apply x broadcasts_S128x1_S128x1280 (ix2 c q) (ix2 c 0) fun ax => ?_
  match ax with
  | ⟨0, _⟩ => rfl
  | ⟨1, _⟩ => rfl

/-- A channel's sum over the positions divided by their number, as the payload forms it (sum, column,
constant column, quotient), read at the channel. -/
private theorem avg_apply (x : FVec Ideal S128x1280 .f32) (c : Fin 128) (u : Fin 1) :
    divf (shapeCast S128x1
          (multiReduction (F := Ideal) .add [1] S128 x 0x00000000#32 reduces_S128x1280_S128 (.inl rfl) rfl)
          shapeCasts_S128_S128x1)
        (broadcast S128x1 (Scalar.ofBits .f32 0x44A00000#32)) (ix2 c u)
      = Ideal.div (∑ k : Fin 1280, x (ix2 c k)) Cert.Spec.count :=
  (divf_apply _ _ _).trans (congrArg₂ Ideal.div ((col_apply _ c u).trans (rowsum_apply x c)) rfl)

/-- The deviation from the channel's mean. -/
private theorem dev_apply (w : Vec Ideal S1x128x1280 .f32) (c : Fin 128) (k : Fin 1280) :
    subf (shapeCast S128x1280 w shapeCasts_S1x128x1280_S128x1280)
        (broadcastTo S128x1280
          (divf (shapeCast S128x1
              (multiReduction (F := Ideal) .add [1] S128 (shapeCast S128x1280 w shapeCasts_S1x128x1280_S128x1280)
                0x00000000#32 reduces_S128x1280_S128 (.inl rfl) rfl)
              shapeCasts_S128_S128x1)
            (broadcast S128x1 (Scalar.ofBits .f32 0x44A00000#32)))
          broadcasts_S128x1_S128x1280) (ix2 c k)
      = w (ix3 0 c k) - Cert.Spec.mean (fun c q => w (ix3 0 c q)) c := by
  unfold Cert.Spec.mean
  exact (subf_apply _ _ _).trans (congrArg₂ (· - ·) (drop_apply w c k)
    ((spread_apply _ c k).trans ((avg_apply _ c 0).trans
      (congrArg₂ Ideal.div (Finset.sum_congr rfl fun j _ => drop_apply w c j) rfl))))

/-- The closing normalisation of the whole block. -/
theorem tail_apply (w : Vec Ideal S1x128x1280 .f32) (g bt : Vec Ideal S128x1 .f32) (cc : Fin 128) (q : Fin 1280) :
    k0_pay1 (F := Ideal) w g bt (ix3 0 cc q)
      = Cert.Spec.norm (fun c q => w (ix3 0 c q)) (fun c => g (ix2 c 0)) (fun c => bt (ix2 c 0)) cc q := by
  unfold k0_pay1
  refine (add_apply _ 0 cc q).trans ?_
  refine (addf_apply _ _ _).trans ?_
  unfold Cert.Spec.norm
  -- the shift
  refine congrArg₂ (· + ·) ?_ ((spread_apply _ cc q).trans (congrFun (shapeCast_self bt _) _))
  refine (mulf_apply _ _ _).trans ?_
  -- the scale
  refine congrArg₂ (· * ·) ?_ ((spread_apply _ cc q).trans (congrFun (shapeCast_self g _) _))
  refine (mulf_apply _ _ _).trans ?_
  refine congrArg₂ (· * ·) (dev_apply w cc q) ?_
  -- the reciprocal square root of the variance plus the guard
  refine (spread_apply _ cc q).trans ?_
  refine congrArg Ideal.rsqrt ?_
  refine (addf_apply _ _ _).trans ?_
  refine congrArg₂ (· + ·) ?_ rfl
  refine (avg_apply _ cc 0).trans ?_
  unfold Cert.Spec.var
  refine congrArg₂ Ideal.div (Finset.sum_congr rfl fun k _ => ?_) rfl
  exact (mulf_apply _ _ _).trans (congrArg₂ (· * ·) (dev_apply w cc k) (dev_apply w cc k))

end Cert.KernelIdeal.KRead

end
-- ==== Proof.KBody.lean ====
/-
  What one grid point leaves in the output block: the five strips written side by side, read back whole,
  normalised and stored over them.
-/
import proofs.«406174_j72584947303115_3_alg».proof.Proof.Gen.KernelIdeal.Frame
import proofs.«406174_j72584947303115_3_alg».proof.Proof.KRead
import proofs.«406174_j72584947303115_3_alg».proof.Proof.KReadTail

noncomputable section

set_option maxRecDepth 16384

namespace Cert.KernelIdeal.KBody

open Idealize.ShloMosaic Idealize.ShloMosaic.ValueIdx Cert.KernelIdeal Cert.KernelIdeal.Gen
open Idealize.ShloMosaic.Tactic

section AnyF

variable {F : FTy → Type} [FloatOps F] [Named F]

/-! ## The five strips are one function of their loads -/

theorem pay3_eq (v0 : Vec F S1x128x1280 .f32) (v5 : Vec F S1x128x256 .f32) (v18 : Vec F S256x1280 .f32) :
    k0_pay3 v0 v5 v18 = k0_pay4 (k0_pay2 v0) v5 v18 := rfl

theorem pay7_eq (v1 : FVec F S128x1280 .f32) (v67 : Vec F S1x128x256 .f32) (v80 : Vec F S256x1280 .f32) :
    k0_pay7 v1 (k0_pay5 v1 v67) (k0_pay6 v1 v67) v80 = k0_pay4 v1 v67 v80 := rfl

theorem pay11_eq (v1 : FVec F S128x1280 .f32) (v98 : Vec F S1x128x256 .f32) (v111 : Vec F S256x1280 .f32) :
    k0_pay11 v1 (k0_pay9 v1 v98 v111) (k0_pay10 v1 v98 v111) = k0_pay4 v1 v98 v111 := rfl

theorem pay12_eq (v1 : FVec F S128x1280 .f32) (v129 : Vec F S1x128x256 .f32) (v142 : Vec F S256x1280 .f32) :
    k0_pay12 v1 v129 v142 = k0_pay4 v1 v129 v142 := rfl

/-! ## The buffer after the five strip stores -/

/-- Columns `o … o + 255` of the output block lie inside it. -/
theorem colInb (o : ℕ) (ho : o + 256 ≤ 1280) : ∀ a, ![0, 0, o] a + S1x128x256.size a ≤ S1x128x1280.size a := by
  intro a
  match a with
  | ⟨0, _⟩ => show 0 + 1 ≤ 1; omega
  | ⟨1, _⟩ => show 0 + 128 ≤ 128; omega
  | ⟨2, _⟩ => show o + 256 ≤ 1280; omega

/-- Rows `o … o + 255` of the weight matrix lie inside it. -/
theorem rowInb (o : ℕ) (ho : o + 256 ≤ 1280) : ∀ a, ![o, 0] a + S256x1280.size a ≤ S1280x1280.size a := by
  intro a
  match a with
  | ⟨0, _⟩ => show o + 256 ≤ 1280; omega
  | ⟨1, _⟩ => show 0 + 1280 ≤ 1280; omega

/-- The strip of the output block at column offset `o`: the rectangle and what is stored through it, computed from the
    same columns of the input block and the same rows of the weights. -/
def strip (x0 : Vec F S1x128x1280 .f32) (x1 : Vec F S1280x1280 .f32) (o : ℕ) (ho : o + 256 ≤ 1280) :
    View.Piece (Elt F) S1x128x1280 .f32 :=
  ⟨Rect.unit ![0, 0, o] S1x128x256.size (colInb o ho),
    k0_pay4 (k0_pay2 x0) (View.ld x0 (Rect.unit ![0, 0, o] S1x128x256.size (colInb o ho)))
      (View.ld x1 (Rect.unit ![o, 0] S256x1280.size (rowInb o ho)))⟩

/-- The five strips, last stored first. -/
def strips (x0 : Vec F S1x128x1280 .f32) (x1 : Vec F S1280x1280 .f32) : List (View.Piece (Elt F) S1x128x1280 .f32) :=
  [strip x0 x1 1024 (by omega), strip x0 x1 768 (by omega), strip x0 x1 512 (by omega), strip x0 x1 256 (by omega),
    strip x0 x1 0 (by omega)]

/-- The buffer the closing normalisation reads: the five strips side by side. -/
def buf (x0 : Vec F S1x128x1280 .f32) (x1 : Vec F S1280x1280 .f32) : Vec F S1x128x1280 .f32 :=
  View.canon (strips x0 x1)

theorem hz3 : (![0, 0, 0] : Fin 3 → ℕ) = fun _ => 0 := by
  funext a; match a with | ⟨0, _⟩ => rfl | ⟨1, _⟩ => rfl | ⟨2, _⟩ => rfl
theorem hz2 : (![0, 0] : Fin 2 → ℕ) = fun _ => 0 := by
  funext a; match a with | ⟨0, _⟩ => rfl | ⟨1, _⟩ => rfl

/-- What the grid point leaves: the closing normalisation of the five strips. -/
theorem out0_eq (c : Dev nD) (i : grid0.Coords)
    (arg1 : Memref sig .tc .vmem S1x128x1280 .f32) (harg1 : arg1.IsWhole) (arg2 : Memref sig .tc .vmem S1280x1280 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1x128x1280 .f32) (harg5 : arg5.IsWhole)
    (x0 : Vec F S1x128x1280 .f32) (x1 : Vec F S1280x1280 .f32) (x2 x3 : Vec F S128x1 .f32) :
    out0_A_4 (F := F) c i arg1 harg1 arg2 harg2 arg3 harg3 arg4 harg4 arg5 harg5 x0 x1 x2 x3
      = k0_pay1 (buf x0 x1) x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_cons_unit_zero (S := S1x128x1280) hz3]
  simp only [View.readAt_eq_ld, harg1.read_unread, harg2.read_unread, harg3.read_unread, harg4.read_unread,
    View.ld_unit_zero (S := S1x128x1280) hz3, View.ld_unit_zero (S := S128x1) hz2, View.readCov_eq_canon',
    pay3_eq, pay7_eq, pay11_eq, pay12_eq]
  have hidx : ∀ j : S1x128x1280.Idx,
      (Rect.unit (s := S1x128x1280) ![0, 0, 0] ![1, 128, 1280] inb_S1x128x1280_S1x128x1280_0_0_0).idx j = j := by
    intro j; funext a; apply Fin.ext
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  refine congrArg (fun w => k0_pay1 w x2 x3) (funext fun j => ?_)
  rw [hidx j]
  rfl

end AnyF

/-! ## One strip read at an index -/

section AtIdeal

/-- The kernel's aggregate of channel `c` at position `q` of the block, from the block's input and the weights. -/
def aggAt (x0 : Vec Ideal S1x128x1280 .f32) (x1 : Vec Ideal S1280x1280 .f32) (c : Fin 128) (q : Fin 1280) : EReal :=
  Cert.Spec.aggK (fun c j => x0 (ix3 0 c j)) (fun d => x0 (ix3 0 d q)) (fun j => x1 (ix2 q j)) c

/-- The input block seen as a channel × position matrix. -/
theorem pay2_apply (x0 : Vec Ideal S1x128x1280 .f32) (c : Fin 128) (j : Fin 1280) :
    k0_pay2 (F := Ideal) x0 (ix2 c j) = x0 (ix3 0 c j) := by
  unfold k0_pay2
  refine (shapeCast_dropUnit_apply ![128, 1280] x0 _ (ix2 c j)).trans ?_
  refine congrArg x0 (funext fun a => ?_)
  match a with
  | ⟨0, _⟩ => rfl
  | ⟨1, _⟩ => rfl
  | ⟨2, _⟩ => rfl

/-- The strip at column offset `o`, read at channel `cc` and local column `r`, is the aggregate at position `o + r`. -/
theorem strip_at (x0 : Vec Ideal S1x128x1280 .f32) (x1 : Vec Ideal S1280x1280 .f32) (o : ℕ) (ho : o + 256 ≤ 1280)
    (cc : Fin 128) (r : Fin 256) (q : Fin 1280) (hq : q.val = o + r.val) :
    (strip x0 x1 o ho).2 (ix3 0 cc r) = aggAt x0 x1 cc q := by
  unfold strip aggAt
  refine (KRead.strip_apply _ _ _ cc r).trans ?_
  have h1 : (fun c j => k0_pay2 (F := Ideal) x0 (ix2 c j)) = fun c j => x0 (ix3 0 c j) :=
    funext fun c => funext fun j => pay2_apply x0 c j
  have h2 : (fun c => View.ld x0 (Rect.unit (s := S1x128x1280) ![0, 0, o] S1x128x256.size (colInb o ho)) (ix3 0 c r))
      = fun d => x0 (ix3 0 d q) := by
    funext d
    refine congrArg x0 (funext fun a => Fin.ext ?_)
    match a with
    | ⟨0, _⟩ => show 0 + 1 * 0 = 0; omega
    | ⟨1, _⟩ => show 0 + 1 * d.val = d.val; omega
    | ⟨2, _⟩ => show o + 1 * r.val = q.val; omega
  have h3 : (fun j => View.ld x1 (Rect.unit (s := S1280x1280) ![o, 0] S256x1280.size (rowInb o ho)) (ix2 r j))
      = fun j => x1 (ix2 q j) := by
    funext j
    refine congrArg x1 (funext fun a => Fin.ext ?_)
    match a with
    | ⟨0, _⟩ => show o + 1 * r.val = q.val; omega
    | ⟨1, _⟩ => show 0 + 1 * j.val = j.val; omega
  exact congrFun (congr (congr (congrArg Cert.Spec.aggK h1) h2) h3) cc

/-- Every strip is a block of the one function `aggAt` of the buffer's index. -/
theorem strip_piece (x0 : Vec Ideal S1x128x1280 .f32) (x1 : Vec Ideal S1280x1280 .f32) (o : ℕ) (ho : o + 256 ≤ 1280)
    (x : (strip x0 x1 o ho).1.shape.Idx) :
    (strip x0 x1 o ho).2 x = (fun y : S1x128x1280.Idx => aggAt x0 x1 (y 1) (y 2)) ((strip x0 x1 o ho).1.emb x) := by
  have hx : x = ix3 (0 : Fin 1) (x 1 : Fin 128) (x 2 : Fin 256) := by
    funext a
    match a with
    | ⟨0, _⟩ => exact Fin.ext (by have := (x 0).isLt; show (x 0).val = 0; change (x 0).val < 1 at this; omega)
    | ⟨1, _⟩ => rfl
    | ⟨2, _⟩ => rfl
  have e1 : (x 1 : Fin 128) = ((strip x0 x1 o ho).1.emb x 1 : Fin 128) :=
    Fin.ext (by show (x 1).val = 0 + 1 * (x 1).val; omega)
  have key := strip_at x0 x1 o ho (x 1) (x 2) ((strip x0 x1 o ho).1.emb x 2)
    (by show o + 1 * (x 2).val = o + (x 2).val; omega)
  exact ((congrArg (strip x0 x1 o ho).2 hx).trans key).trans
    (congrArg (fun c => aggAt x0 x1 c ((strip x0 x1 o ho).1.emb x 2)) e1)

end AtIdeal

section Buffer

/-- The five strips cover the block. -/
theorem strips_cover (x0 : Vec Ideal S1x128x1280 .f32) (x1 : Vec Ideal S1280x1280 .f32) (y : S1x128x1280.Idx) :
    ∃ p ∈ strips x0 x1, y ∈ p.1.set :=
  View.cover_of_tiledL (strips x0 x1) S1x128x256.size (by sl_kernel_rfl) y

/-- The buffer after the five strip stores holds the aggregate at every index. -/
theorem buf_apply (x0 : Vec Ideal S1x128x1280 .f32) (x1 : Vec Ideal S1280x1280 .f32) (c : Fin 128) (q : Fin 1280) :
    buf x0 x1 (ix3 0 c q) = aggAt x0 x1 c q := by
  unfold buf
  refine View.canon_apply_of_pieces (fun y : S1x128x1280.Idx => aggAt x0 x1 (y 1) (y 2)) (strips x0 x1) ?_ (ix3 0 c q)
    (strips_cover x0 x1 (ix3 0 c q))
  intro p hp
  unfold strips at hp
  simp only [List.mem_cons, List.not_mem_nil, or_false] at hp
  rcases hp with rfl | rfl | rfl | rfl | rfl
  · exact strip_piece x0 x1 1024 (by omega)
  · exact strip_piece x0 x1 768 (by omega)
  · exact strip_piece x0 x1 512 (by omega)
  · exact strip_piece x0 x1 256 (by omega)
  · exact strip_piece x0 x1 0 (by omega)

end Buffer

theorem out0_apply (c : Dev nD) (i : grid0.Coords)
    (arg1 : Memref sig .tc .vmem S1x128x1280 .f32) (harg1 : arg1.IsWhole) (arg2 : Memref sig .tc .vmem S1280x1280 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1x128x1280 .f32) (harg5 : arg5.IsWhole)
    (x0 : Vec Ideal S1x128x1280 .f32) (x1 : Vec Ideal S1280x1280 .f32) (x2 x3 : Vec Ideal S128x1 .f32)
    (cc : Fin 128) (q : Fin 1280) :
    out0_A_4 (F := Ideal) c i arg1 harg1 arg2 harg2 arg3 harg3 arg4 harg4 arg5 harg5 x0 x1 x2 x3 (ix3 0 cc q)
      = Cert.Spec.outKb (fun c q => x0 (ix3 0 c q)) (fun i j => x1 (ix2 i j)) (fun c => x2 (ix2 c 0))
          (fun c => x3 (ix2 c 0)) cc q := by
  refine (congrFun (out0_eq (F := Ideal) c i arg1 harg1 arg2 harg2 arg3 harg3 arg4 harg4 arg5 harg5 x0 x1 x2 x3)
    (ix3 0 cc q)).trans ?_
  refine (KRead.tail_apply (buf x0 x1) x2 x3 cc q).trans ?_
  unfold Cert.Spec.outKb
  have hW : (fun c q => buf x0 x1 (ix3 0 c q))
      = fun c' i => Cert.Spec.aggK (fun c q => x0 (ix3 0 c q)) (fun d => x0 (ix3 0 d i)) (fun j => x1 (ix2 i j)) c' :=
    funext fun c => funext fun q => buf_apply x0 x1 c q
  rw [hW]

end Cert.KernelIdeal.KBody

end
-- ==== Proof.KValue.lean ====
/-
  The kernel program's value. The grid has one point per batch element; point t stages batch element t of the
  reshaped input ([1,128,1280] of [16,128,1280]), the whole position × position weight matrix and the two
  per-channel columns, and writes back block t of the output. So the output array after the run is, at
  (b, c, q), the one-batch function of batch element b; the closing reshape puts position q = 40 h + w at (h, w).
-/
import proofs.«406174_j72584947303115_3_alg».proof.Proof.Gen.KernelIdeal.Frame
import proofs.«406174_j72584947303115_3_alg».proof.Proof.KBody
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four arrays as the region finds them: reshapes of the arguments -/

theorem entry_v0 (c : Dev nD) :
    (V m c main_v0 : S16x128x1280.Idx → EReal)
      = shapeCast S16x128x1280 (m ((c : Thread nD τ).loc main_arg0)) shapeCasts_S16x128x32x40_S16x128x1280 := by
  show StableHlo.after hostOps0 (fun b => m (c, b)) (Proc.devRef .tc main_v0) = _
  after_results; rfl

theorem entry_v1 (c : Dev nD) :
    (V m c main_v1 : S1280x1280.Idx → EReal)
      = shapeCast S1280x1280 (m ((c : Thread nD τ).loc main_arg1)) shapeCasts_S32x40x32x40_S1280x1280 := by
  show StableHlo.after hostOps0 (fun b => m (c, b)) (Proc.devRef .tc main_v1) = _
  after_results; rfl

theorem entry_v2 (c : Dev nD) :
    (V m c main_v2 : S128x1.Idx → EReal)
      = shapeCast S128x1 (m ((c : Thread nD τ).loc main_arg2)) shapeCasts_S128_S128x1 := by
  show StableHlo.after hostOps0 (fun b => m (c, b)) (Proc.devRef .tc main_v2) = _
  after_results; rfl

theorem entry_v3 (c : Dev nD) :
    (V m c main_v3 : S128x1.Idx → EReal)
      = shapeCast S128x1 (m ((c : Thread nD τ).loc main_arg3)) shapeCasts_S128_S128x1 := by
  show StableHlo.after hostOps0 (fun b => m (c, b)) (Proc.devRef .tc main_v3) = _
  after_results; rfl

/-- Position q of the flattened map is (q / 40, q % 40). -/
theorem entry_v0_apply (c : Dev nD) (b : Fin 16) (ch : Fin 128) (q : Fin 1280) :
    (V m c main_v0 : S16x128x1280.Idx → EReal) (ix3 b ch q)
      = Cert.Spec.xAt (m ((c : Thread nD τ).loc main_arg0)) b ch q := by
  rw [entry_v0]
  unfold Cert.Spec.xAt
  refine shapeCast_apply _ _ _ (ix4 b ch (Cert.Spec.hOf q) (Cert.Spec.wOf q)) ?_
  rw [Shape.rowMajor_val_four, Shape.rowMajor_val_three]
  show ((b.val * 128 + ch.val) * 32 + q.val / 40) * 40 + q.val % 40 = (b.val * 128 + ch.val) * 1280 + q.val
  omega

theorem entry_v1_apply (c : Dev nD) (i j : Fin 1280) :
    (V m c main_v1 : S1280x1280.Idx → EReal) (ix2 i j)
      = Cert.Spec.pAt (m ((c : Thread nD τ).loc main_arg1)) i j := by
  rw [entry_v1]
  unfold Cert.Spec.pAt
  refine shapeCast_apply _ _ _ (ix4 (Cert.Spec.hOf i) (Cert.Spec.wOf i) (Cert.Spec.hOf j) (Cert.Spec.wOf j)) ?_
  rw [Shape.rowMajor_val_four, Shape.rowMajor_val_two]
  show ((i.val / 40 * 40 + i.val % 40) * 32 + j.val / 40) * 40 + j.val % 40 = i.val * 1280 + j.val
  omega

theorem entry_v2_apply (c : Dev nD) (ch : Fin 128) :
    (V m c main_v2 : S128x1.Idx → EReal) (ix2 ch 0)
      = Cert.Spec.gAt (m ((c : Thread nD τ).loc main_arg2)) ch := by
  rw [entry_v2]
  unfold Cert.Spec.gAt
  refine shapeCast_apply _ _ _ (ix1 ch) ?_
  rw [Shape.rowMajor_val_one, Shape.rowMajor_val_two]
  show ch.val = ch.val * 1 + 0
  omega

theorem entry_v3_apply (c : Dev nD) (ch : Fin 128) :
    (V m c main_v3 : S128x1.Idx → EReal) (ix2 ch 0)
      = Cert.Spec.gAt (m ((c : Thread nD τ).loc main_arg3)) ch := by
  rw [entry_v3]
  unfold Cert.Spec.gAt
  refine shapeCast_apply _ _ _ (ix1 ch) ?_
  rw [Shape.rowMajor_val_one, Shape.rowMajor_val_two]
  show ch.val = ch.val * 1 + 0
  omega

/-! ## The output array after the run -/

/-- The output array's contents after the run: at (b, c, q) the one-batch function of batch element b. -/
def G4 (c : Dev nD) : S16x128x1280.Idx → EReal := fun i =>
  Cert.Spec.outKb (Cert.Spec.xAt (m ((c : Thread nD τ).loc main_arg0)) (i 0))
    (Cert.Spec.pAt (m ((c : Thread nD τ).loc main_arg1)))
    (Cert.Spec.gAt (m ((c : Thread nD τ).loc main_arg2)))
    (Cert.Spec.gAt (m ((c : Thread nD τ).loc main_arg3))) (i 1) (i 2)

/-- The printed index maps, decided over the grid: the input and the output windows sit at block (t, 0, 0), the
    three resident windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch element a grid point works on. -/
def bOf (t : Fin cfg0.N) : Fin 16 := ⟨t.val, by have h := t.isLt; have e : cfg0.N = 16 := N_0; omega⟩

/-- Window 0's block at point t is batch element t of the input. -/
theorem iblk0_apply (c : Dev nD) (t : Fin cfg0.N) (ch : Fin 128) (q : Fin 1280) :
    (iblk m c 0 t : S1x128x1280.Idx → EReal) (ix3 0 ch q)
      = Cert.Spec.xAt (m ((c : Thread nD τ).loc main_arg0)) (bOf t) ch q := by
  have he : ((cfg0.win 0).blk t).view.emb (ix3 0 ch q) = (ix3 (bOf t) ch q : S16x128x1280.Idx) := by
    obtain ⟨e0, e1, e2, -⟩ := idx_facts t
    funext a; apply Fin.ext
    match a with
    | ⟨0, _⟩ => show win0_0.index t (0 : Fin 3) * 1 + 1 * 0 = t.val; omega
    | ⟨1, _⟩ => show win0_0.index t (1 : Fin 3) * 128 + 1 * ch.val = ch.val; omega
    | ⟨2, _⟩ => show win0_0.index t (2 : Fin 3) * 1280 + 1 * q.val = q.val; omega
  show V m c main_v0 (((cfg0.win 0).blk t).view.emb (ix3 0 ch q)) = _
  rw [he]
  exact entry_v0_apply m c (bOf t) ch q

/-- Window 1's block at every point is the whole weight matrix. -/
theorem iblk1_apply (c : Dev nD) (t : Fin cfg0.N) (i j : Fin 1280) :
    (iblk m c 1 t : S1280x1280.Idx → EReal) (ix2 i j)
      = Cert.Spec.pAt (m ((c : Thread nD τ).loc main_arg1)) i j := by
  have he : ((cfg0.win 1).blk t).view.emb (ix2 i j) = (ix2 i j : S1280x1280.Idx) := by
    obtain ⟨-, -, -, e0, e1, -⟩ := idx_facts t
    funext a; apply Fin.ext
    match a with
    | ⟨0, _⟩ => show win0_1.index t (0 : Fin 2) * 1280 + 1 * i.val = i.val; omega
    | ⟨1, _⟩ => show win0_1.index t (1 : Fin 2) * 1280 + 1 * j.val = j.val; omega
  show V m c main_v1 (((cfg0.win 1).blk t).view.emb (ix2 i j)) = _
  rw [he]
  exact entry_v1_apply m c i j

/-- Windows 2 and 3 are the scale and the shift columns. -/
theorem iblk2_apply (c : Dev nD) (t : Fin cfg0.N) (ch : Fin 128) :
    (iblk m c 2 t : S128x1.Idx → EReal) (ix2 ch 0)
      = Cert.Spec.gAt (m ((c : Thread nD τ).loc main_arg2)) ch := by
  have he : ((cfg0.win 2).blk t).view.emb (ix2 ch 0) = (ix2 ch 0 : S128x1.Idx) := by
    obtain ⟨-, -, -, -, -, e0, e1, -⟩ := idx_facts t
    funext a; apply Fin.ext
    match a with
    | ⟨0, _⟩ => show win0_2.index t (0 : Fin 2) * 128 + 1 * ch.val = ch.val; omega
    | ⟨1, _⟩ => show win0_2.index t (1 : Fin 2) * 1 + 1 * 0 = 0; omega
  show V m c main_v2 (((cfg0.win 2).blk t).view.emb (ix2 ch 0)) = _
  rw [he]
  exact entry_v2_apply m c ch

theorem iblk3_apply (c : Dev nD) (t : Fin cfg0.N) (ch : Fin 128) :
    (iblk m c 3 t : S128x1.Idx → EReal) (ix2 ch 0)
      = Cert.Spec.gAt (m ((c : Thread nD τ).loc main_arg3)) ch := by
  have he : ((cfg0.win 3).blk t).view.emb (ix2 ch 0) = (ix2 ch 0 : S128x1.Idx) := by
    obtain ⟨-, -, -, -, -, -, -, e0, e1, -⟩ := idx_facts t
    funext a; apply Fin.ext
    match a with
    | ⟨0, _⟩ => show win0_3.index t (0 : Fin 2) * 128 + 1 * ch.val = ch.val; omega
    | ⟨1, _⟩ => show win0_3.index t (1 : Fin 2) * 1 + 1 * 0 = 0; omega
  show V m c main_v3 (((cfg0.win 3).blk t).view.emb (ix2 ch 0)) = _
  rw [he]
  exact entry_v3_apply m c ch

/-- WHAT POINT t WRITES BACK is block t of the output function. -/
theorem flushed_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold outsAt0
  funext j
  obtain ⟨z, ch, q, rfl⟩ : ∃ (z : Fin 1) (ch : Fin 128) (q : Fin 1280), j = ix3 z ch q := ⟨j 0, j 1, j 2, eq_ix3 j⟩
  obtain rfl : z = 0 := Subsingleton.elim _ _
  show out0_A_4 (F := Ideal) c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t) (ix3 0 ch q)
    = G4 m c (((cfg0.win 4).blk t).view.emb (ix3 0 ch q))
  refine (Cert.KernelIdeal.KBody.out0_apply c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t) ch q).trans ?_
  have he : ((cfg0.win 4).blk t).view.emb (ix3 0 ch q) = (ix3 (bOf t) ch q : S16x128x1280.Idx) := by
    obtain ⟨-, -, -, -, -, -, -, -, -, e0, e1, e2⟩ := idx_facts t
    funext a; apply Fin.ext
    match a with
    | ⟨0, _⟩ => show win0_4.index t (0 : Fin 3) * 1 + 1 * 0 = t.val; omega
    | ⟨1, _⟩ => show win0_4.index t (1 : Fin 3) * 128 + 1 * ch.val = ch.val; omega
    | ⟨2, _⟩ => show win0_4.index t (2 : Fin 3) * 1280 + 1 * q.val = q.val; omega
  rw [he]
  have h0 : (fun (c' : Fin 128) (q' : Fin 1280) => (iblk m c 0 t : S1x128x1280.Idx → EReal) (ix3 0 c' q'))
      = Cert.Spec.xAt (m ((c : Thread nD τ).loc main_arg0)) (bOf t) :=
    funext fun c' => funext fun q' => iblk0_apply m c t c' q'
  have h1 : (fun (i j : Fin 1280) => (iblk m c 1 t : S1280x1280.Idx → EReal) (ix2 i j))
      = Cert.Spec.pAt (m ((c : Thread nD τ).loc main_arg1)) :=
    funext fun i => funext fun j => iblk1_apply m c t i j
  have h2 : (fun (c' : Fin 128) => (iblk m c 2 t : S128x1.Idx → EReal) (ix2 c' 0))
      = Cert.Spec.gAt (m ((c : Thread nD τ).loc main_arg2)) :=
    funext fun c' => iblk2_apply m c t c'
  have h3 : (fun (c' : Fin 128) => (iblk m c 3 t : S128x1.Idx → EReal) (ix2 c' 0))
      = Cert.Spec.gAt (m ((c : Thread nD τ).loc main_arg3)) :=
    funext fun c' => iblk3_apply m c t c'
  show Cert.Spec.outKb (fun (c' : Fin 128) (q' : Fin 1280) => (iblk m c 0 t : S1x128x1280.Idx → EReal) (ix3 0 c' q'))
      (fun (i j : Fin 1280) => (iblk m c 1 t : S1280x1280.Idx → EReal) (ix2 i j))
      (fun (c' : Fin 128) => (iblk m c 2 t : S128x1.Idx → EReal) (ix2 c' 0))
      (fun (c' : Fin 128) => (iblk m c 3 t : S128x1.Idx → EReal) (ix2 c' 0)) ch q = _
  rw [h0, h1, h2, h3]
  rfl

/-- An index of the output array is in point t's block iff each coordinate is in the block's range. -/
theorem mem_blk4 (t : Fin cfg0.N) (i : S16x128x1280.Idx) :
    i ∈ ((cfg0.win 4).blk t).view.set ↔ ∀ a : Fin 3, win0_4.index t a * S1x128x1280.size a ≤ (i a).val
      ∧ (i a).val < win0_4.index t a * S1x128x1280.size a + S1x128x1280.size a := by
  show i ∈ ((View.whole main_v4).slice (win0_4.rect t)).set ↔ _
  rw [View.set_slice_whole, Rect.mem_set_unit]
  exact Iff.rfl

/-- Every index of the output array lies in the block of the point named by its batch coordinate. -/
theorem cover4 (i : S16x128x1280.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hi2 : (i 2).val < 1280 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 1280 ≤ (i 2).val ∧ (i 2).val < win0_4.index t (2 : Fin 3) * 1280 + 1280
    omega

/-- THE OUTPUT ARRAY after the run. -/
theorem final4 (c : Dev nD) : (dats m 0 c).arrAt 4 cfg0.N = G4 m c :=
  (dats m 0 c).arrAt_eq_of_cover 4 (G4 m c) (fun t _ => flushed_eq m c t) (fun i => cover4 i)

end Cert.KernelIdeal.KValue

end
-- ==== Proof.KRun.lean ====
/-
  The kernel program's run, read: after every weakly fair execution the result buffer holds the specification's
  array of the four arguments (the output array after the region, reshaped from [16,128,1280] to
  [16,128,32,40]) and the arguments are unchanged.
-/
import proofs.«406174_j72584947303115_3_alg».proof.Proof.KValue

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the host operation after the region leaves in the result buffer: the output array, which holds the
    one-batch function of batch element `b` at `(b, c, q)`, read at the position `q = 40 h + w`. -/
theorem tail_eq (c : Dev nD) :
    Pipeline.afterTail₀ cfgs (dats m) 0 (V0 m) [hostOps1] c main_v5
      = Cert.Spec.outK (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  funext i
  show shapeCast S16x128x32x40
      (Pipeline.withArrays spec0 c (V0 m c) (fun w => (dats m 0 c).arrAt w cfg0.N)
        (Proc.devRef .tc (Pipeline.arrRef spec0 4)))
      shapeCasts_S16x128x1280_S16x128x32x40 i = _
  rw [Pipeline.withArrays_arr spec0 launch0.win.arr_inj c _ _ 4, final4]
  obtain ⟨b, ch, h, w, rfl⟩ : ∃ b ch h w, i = ix4 b ch h w := ⟨_, _, _, _, eq_ix4 i⟩
  refine (shapeCast_apply _ _ _ (ix3 b ch (Cert.Spec.posOf h w)) ?_).trans ?_
  · rw [Shape.rowMajor_val_four, Shape.rowMajor_val_three]
    show (b.val * 128 + ch.val) * 1280 + (40 * h.val + w.val) = ((b.val * 128 + ch.val) * 32 + h.val) * 40 + w.val
    omega
  · unfold G4 Cert.Spec.outK
    rfl

theorem run : θ_run (defs (F := Ideal)) (onTc (τ := τ) (main (F := Ideal))) ⟨m, fun _ => 0, ρ⟩ fun r => ∀ c : Dev nD,
      r.2.mem ((c.tc : Thread nD τ).loc main_v5)
          = Cert.Spec.outK (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefTerm.lean ====
/-
  The reference program's result as ONE term of its four arguments, stage by stage: the host operations of
  its @main composed in order (the calls of the variance helper and of its `where` opened at their call
  sites). `agg` is the attention-weighted aggregate reshaped back to the input's layout; `tail` the
  per-channel normalisation over the 32 × 40 positions with the affine map; `out` their composition.
-/
import proofs.«406174_j72584947303115_3_alg».proof.Proof.Gen.ReferenceIdeal
import Idealize.ShloMosaic.PureOps.Ideal

noncomputable section

namespace Cert.RefTerm

open Idealize.ShloMosaic Cert.ReferenceIdeal Cert.ReferenceIdeal.Gen

/-- The input as batch × position × channel. -/
def xf (x : FVec Ideal S16x128x32x40 .f32) : FVec Ideal S16x1280x128 .f32 :=
  transpose S16x1280x128 [0, 2, 1] (shapeCast S16x128x1280 x shapeCasts_S16x128x32x40_S16x128x1280)
    transposes_S16x128x1280_S16x1280x128_0_2_1

/-- The similarities divided by the temperature. -/
def logits (x : FVec Ideal S16x128x32x40 .f32) : FVec Ideal S16x1280x1280 .f32 :=
  Host.divf (Host.dotGeneral dot_S16x1280x128_S16x1280x128_S16x1280x1280_2_2_1_1_0_0 none (xf x) (xf x))
    (broadcastInDim S16x1280x1280 ![] bcast_S_S16x1280x1280 (constant S_ .f32 0x41593924#32))

/-- The row maxima, joined with `-inf`. -/
def rowMax (x : FVec Ideal S16x128x32x40 .f32) : FVec Ideal S16x1280 .f32 :=
  maximumf (broadcastInDim S16x1280 ![] bcast_S_S16x1280 (constant S_ .f32 0xFF800000#32))
    (Host.reduce FloatOps.maximumf (logits x) (constant S_ .f32 0xFF800000#32) reducesTo_S16x1280x1280_S16x1280_d2 h_S_)

/-- The exponentials of the shifted similarities. -/
def expo (x : FVec Ideal S16x128x32x40 .f32) : FVec Ideal S16x1280x1280 .f32 :=
  Host.exp (subf (logits x)
    (broadcastInDim S16x1280x1280 ![0, 1, 2] bcast_S16x1280x1_S16x1280x1280_0_1_2
      (broadcastInDim S16x1280x1 ![0, 1] bcast_S16x1280_S16x1280x1_0_1 (rowMax x))))

/-- The softmax. -/
def att (x : FVec Ideal S16x128x32x40 .f32) : FVec Ideal S16x1280x1280 .f32 :=
  Host.divf (expo x)
    (broadcastInDim S16x1280x1280 ![0, 1, 2] bcast_S16x1280x1_S16x1280x1280_0_1_2
      (broadcastInDim S16x1280x1 ![0, 1] bcast_S16x1280_S16x1280x1_0_1
        (Host.reduceAdd (expo x) (constant S_ .f32 0x00000000#32) reducesTo_S16x1280x1280_S16x1280_d2 h_S_)))

/-- The softmax times the distance weights. -/
def w0 (x : FVec Ideal S16x128x32x40 .f32) (p : FVec Ideal S32x40x32x40 .f32) : FVec Ideal S16x1280x1280 .f32 :=
  mulf (att x)
    (broadcastInDim S16x1280x1280 ![0, 1, 2] bcast_S1x1280x1280_S16x1280x1280_0_1_2
      (broadcastInDim S1x1280x1280 ![1, 2] bcast_S1280x1280_S1x1280x1280_1_2
        (shapeCast S1280x1280 p shapeCasts_S32x40x32x40_S1280x1280)))

/-- The renormalised weights. -/
def wts (x : FVec Ideal S16x128x32x40 .f32) (p : FVec Ideal S32x40x32x40 .f32) : FVec Ideal S16x1280x1280 .f32 :=
  Host.divf (w0 x p)
    (broadcastInDim S16x1280x1280 ![0, 1, 2] bcast_S16x1280x1_S16x1280x1280_0_1_2
      (addf
        (broadcastInDim S16x1280x1 ![0, 1] bcast_S16x1280_S16x1280x1_0_1
          (Host.reduceAdd (w0 x p) (constant S_ .f32 0x00000000#32) reducesTo_S16x1280x1280_S16x1280_d2 h_S_))
        (broadcastInDim S16x1280x1 ![] bcast_S_S16x1280x1 (constant S_ .f32 0x322BCC77#32))))

/-- The aggregate, back in the input's layout. -/
def agg (x : FVec Ideal S16x128x32x40 .f32) (p : FVec Ideal S32x40x32x40 .f32) : FVec Ideal S16x128x32x40 .f32 :=
  shapeCast S16x128x32x40
    (transpose S16x128x1280 [0, 2, 1]
      (Host.dotGeneral dot_S16x1280x1280_S16x1280x128_S16x1280x128_2_1_1_2_0_0 none (wts x p) (xf x))
      transposes_S16x1280x128_S16x128x1280_0_2_1)
    shapeCasts_S16x128x1280_S16x128x32x40

/-- The per-channel mean over the positions. -/
def meanR (a : FVec Ideal S16x128x32x40 .f32) : FVec Ideal S16x128x1x1 .f32 :=
  Host.divf
    (broadcastInDim S16x128x1x1 ![0, 1] bcast_S16x128_S16x128x1x1_0_1
      (Host.reduceAdd a (constant S_ .f32 0x00000000#32) reducesTo_S16x128x32x40_S16x128_d2_3 h_S_))
    (broadcastInDim S16x128x1x1 ![] bcast_S_S16x128x1x1 (constant S_ .f32 0x44A00000#32))

/-- The deviations from the mean. -/
def centered (a : FVec Ideal S16x128x32x40 .f32) : FVec Ideal S16x128x32x40 .f32 :=
  subf a (broadcastInDim S16x128x32x40 ![0, 1, 2, 3] bcast_S16x128x1x1_S16x128x32x40_0_1_2_3 (meanR a))

/-- The variance's divisor: the count minus the (zero) degrees of freedom correction. -/
def dof : FVec Ideal S_ .f32 :=
  subf (constant S_ .f32 0x44A00000#32) (sitofp .f32 (constantI S_ 32 0#32))

/-- The biased variance, guarded by the helper's `where` on a positive divisor. -/
def varR (a : FVec Ideal S16x128x32x40 .f32) : FVec Ideal S16x128x1x1 .f32 :=
  select (broadcastInDim S16x128x1x1 ![] bcast_S_S16x128x1x1 (cmpf .ogt dof (constant S_ .f32 0x00000000#32)))
    (Host.divf
      (broadcastInDim S16x128x1x1 ![0, 1] bcast_S16x128_S16x128x1x1_0_1
        (Host.reduceAdd (mulf (centered a) (centered a)) (constant S_ .f32 0x00000000#32)
          reducesTo_S16x128x32x40_S16x128_d2_3 h_S_))
      (broadcastInDim S16x128x1x1 ![] bcast_S_S16x128x1x1 dof))
    (broadcastInDim S16x128x1x1 ![] bcast_S_S16x128x1x1 (id (constant S_ .f32 0x7FC00000#32)))

/-- The normalisation and the affine map. -/
def tail (a : FVec Ideal S16x128x32x40 .f32) (g b : FVec Ideal S128 .f32) : FVec Ideal S16x128x32x40 .f32 :=
  addf
    (mulf
      (mulf (centered a)
        (broadcastInDim S16x128x32x40 ![0, 1, 2, 3] bcast_S16x128x1x1_S16x128x32x40_0_1_2_3
          (Host.rsqrt (addf (varR a)
            (broadcastInDim S16x128x1x1 ![] bcast_S_S16x128x1x1 (constant S_ .f32 0x3727C5AC#32))))))
      (broadcastInDim S16x128x32x40 ![0, 1, 2, 3] bcast_S1x128x1x1_S16x128x32x40_0_1_2_3
        (broadcastInDim S1x128x1x1 ![1] bcast_S128_S1x128x1x1_1 g)))
    (broadcastInDim S16x128x32x40 ![0, 1, 2, 3] bcast_S1x128x1x1_S16x128x32x40_0_1_2_3
      (broadcastInDim S1x128x1x1 ![1] bcast_S128_S1x128x1x1_1 b))

/-- The reference's result. -/
def out (x : FVec Ideal S16x128x32x40 .f32) (p : FVec Ideal S32x40x32x40 .f32) (g b : FVec Ideal S128 .f32) :
    FVec Ideal S16x128x32x40 .f32 :=
  tail (agg x p) g b

end Cert.RefTerm

end
-- ==== Proof.RefRun.lean ====
/-
  The reference program's run: its @main is a straight line of host operations (the variance helper and its
  `where` opened at their call sites), so every weakly fair execution terminates with the result buffer at
  the composed term of the arguments and the arguments unchanged.
-/
import proofs.«406174_j72584947303115_3_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Generic

variable {F : FTy → Type} [FloatOps F]

/-- @main's operations in order: its own fifty-six, with the variance helper's twenty at its call (the mean, the
    deviations and their squares, the divisor, the quotient and its guard) and, at that helper's end, the three
    of its `where` (the fill value converted and broadcast, the select), each over its call's buffers. -/
abbrev ops : List (HloOp τ sig (Elt F)) :=
  [ reshape main_arg0 main_v0 rfl shapeCasts_S16x128x32x40_S16x128x1280,
    unary main_v0 main_v1 ((transpose S16x1280x128 [0, 2, 1] · transposes_S16x128x1280_S16x1280x128_0_2_1) : (⟨S16x128x1280, .f32⟩ : BufTy).Contents (Elt F) → (⟨S16x1280x128, .f32⟩ : BufTy).Contents (Elt F)),
    binary main_v1 main_v1 main_v2 ((fun l r => Host.dotGeneral dot_S16x1280x128_S16x1280x128_S16x1280x1280_2_2_1_1_0_0 none l r) : (⟨S16x1280x128, .f32⟩ : BufTy).Contents (Elt F) → (⟨S16x1280x128, .f32⟩ : BufTy).Contents (Elt F) → (⟨S16x1280x1280, .f32⟩ : BufTy).Contents (Elt F)),
    nullary main_cst (constant S_ .f32 0x41593924#32),
    unary main_cst main_v3 (broadcastInDim S16x1280x1280 ![] bcast_S_S16x1280x1280 : (⟨S_, .f32⟩ : BufTy).Contents (Elt F) → (⟨S16x1280x1280, .f32⟩ : BufTy).Contents (Elt F)),
    binary main_v2 main_v3 main_v4 (Host.divf : (⟨S16x1280x1280, .f32⟩ : BufTy).Contents (Elt F) → (⟨S16x1280x1280, .f32⟩ : BufTy).Contents (Elt F) → (⟨S16x1280x1280, .f32⟩ : BufTy).Contents (Elt F)),
    nullary main_cst_0 (constant S_ .f32 0xFF800000#32),
    binary main_v4 main_cst_0 main_v5 ((fun x v => Host.reduce FloatOps.maximumf x v reducesTo_S16x1280x1280_S16x1280_d2 h_S_) : (⟨S16x1280x1280, .f32⟩ : BufTy).Contents (Elt F) → (⟨S_, .f32⟩ : BufTy).Contents (Elt F) → (⟨S16x1280, .f32⟩ : BufTy).Contents (Elt F)),
    nullary main_cst_1 (constant S_ .f32 0xFF800000#32),
    unary main_cst_1 main_v6 (broadcastInDim S16x1280 ![] bcast_S_S16x1280 : (⟨S_, .f32⟩ : BufTy).Contents (Elt F) → (⟨S16x1280, .f32⟩ : BufTy).Contents (Elt F)),
    binary main_v6 main_v5 main_v7 (maximumf : (⟨S16x1280, .f32⟩ : BufTy).Contents (Elt F) → (⟨S16x1280, .f32⟩ : BufTy).Contents (Elt F) → (⟨S16x1280, .f32⟩ : BufTy).Contents (Elt F)),
    unary main_v7 main_v8 (broadcastInDim S16x1280x1 ![0, 1] bcast_S16x1280_S16x1280x1_0_1 : (⟨S16x1280, .f32⟩ : BufTy).Contents (Elt F) → (⟨S16x1280x1, .f32⟩ : BufTy).Contents (Elt F)),
    unary main_v8 main_v9 (broadcastInDim S16x1280x1280 ![0, 1, 2] bcast_S16x1280x1_S16x1280x1280_0_1_2 : (⟨S16x1280x1, .f32⟩ : BufTy).Contents (Elt F) → (⟨S16x1280x1280, .f32⟩ : BufTy).Contents (Elt F)),
    binary main_v4 main_v9 main_v10 (subf : (⟨S16x1280x1280, .f32⟩ : BufTy).Contents (Elt F) → (⟨S16x1280x1280, .f32⟩ : BufTy).Contents (Elt F) → (⟨S16x1280x1280, .f32⟩ : BufTy).Contents (Elt F)),
    unary main_v10 main_v11 (Host.exp : (⟨S16x1280x1280, .f32⟩ : BufTy).Contents (Elt F) → (⟨S16x1280x1280, .f32⟩ : BufTy).Contents (Elt F)),
    nullary main_cst_2 (constant S_ .f32 0x00000000#32),
    binary main_v11 main_cst_2 main_v12 ((fun x v => Host.reduceAdd x v reducesTo_S16x1280x1280_S16x1280_d2 h_S_) : (⟨S16x1280x1280, .f32⟩ : BufTy).Contents (Elt F) → (⟨S_, .f32⟩ : BufTy).Contents (Elt F) → (⟨S16x1280, .f32⟩ : BufTy).Contents (Elt F)),
    unary main_v12 main_v13 (broadcastInDim S16x1280x1 ![0, 1] bcast_S16x1280_S16x1280x1_0_1 : (⟨S16x1280, .f32⟩ : BufTy).Contents (Elt F) → (⟨S16x1280x1, .f32⟩ : BufTy).Contents (Elt F)),
    unary main_v13 main_v14 (broadcastInDim S16x1280x1280 ![0, 1, 2] bcast_S16x1280x1_S16x1280x1280_0_1_2 : (⟨S16x1280x1, .f32⟩ : BufTy).Contents (Elt F) → (⟨S16x1280x1280, .f32⟩ : BufTy).Contents (Elt F)),
    binary main_v11 main_v14 main_v15 (Host.divf : (⟨S16x1280x1280, .f32⟩ : BufTy).Contents (Elt F) → (⟨S16x1280x1280, .f32⟩ : BufTy).Contents (Elt F) → (⟨S16x1280x1280, .f32⟩ : BufTy).Contents (Elt F)),
    reshape main_arg1 main_v16 rfl shapeCasts_S32x40x32x40_S1280x1280,
    unary main_v16 main_v17 (broadcastInDim S1x1280x1280 ![1, 2] bcast_S1280x1280_S1x1280x1280_1_2 : (⟨S1280x1280, .f32⟩ : BufTy).Contents (Elt F) → (⟨S1x1280x1280, .f32⟩ : BufTy).Contents (Elt F)),
    unary main_v17 main_v18 (broadcastInDim S16x1280x1280 ![0, 1, 2] bcast_S1x1280x1280_S16x1280x1280_0_1_2 : (⟨S1x1280x1280, .f32⟩ : BufTy).Contents (Elt F) → (⟨S16x1280x1280, .f32⟩ : BufTy).Contents (Elt F)),
    binary main_v15 main_v18 main_v19 (mulf : (⟨S16x1280x1280, .f32⟩ : BufTy).Contents (Elt F) → (⟨S16x1280x1280, .f32⟩ : BufTy).Contents (Elt F) → (⟨S16x1280x1280, .f32⟩ : BufTy).Contents (Elt F)),
    nullary main_cst_3 (constant S_ .f32 0x00000000#32),
    binary main_v19 main_cst_3 main_v20 ((fun x v => Host.reduceAdd x v reducesTo_S16x1280x1280_S16x1280_d2 h_S_) : (⟨S16x1280x1280, .f32⟩ : BufTy).Contents (Elt F) → (⟨S_, .f32⟩ : BufTy).Contents (Elt F) → (⟨S16x1280, .f32⟩ : BufTy).Contents (Elt F)),
    unary main_v20 main_v21 (broadcastInDim S16x1280x1 ![0, 1] bcast_S16x1280_S16x1280x1_0_1 : (⟨S16x1280, .f32⟩ : BufTy).Contents (Elt F) → (⟨S16x1280x1, .f32⟩ : BufTy).Contents (Elt F)),
    nullary main_cst_4 (constant S_ .f32 0x322BCC77#32),
    unary main_cst_4 main_v22 (broadcastInDim S16x1280x1 ![] bcast_S_S16x1280x1 : (⟨S_, .f32⟩ : BufTy).Contents (Elt F) → (⟨S16x1280x1, .f32⟩ : BufTy).Contents (Elt F)),
    binary main_v21 main_v22 main_v23 (addf : (⟨S16x1280x1, .f32⟩ : BufTy).Contents (Elt F) → (⟨S16x1280x1, .f32⟩ : BufTy).Contents (Elt F) → (⟨S16x1280x1, .f32⟩ : BufTy).Contents (Elt F)),
    unary main_v23 main_v24 (broadcastInDim S16x1280x1280 ![0, 1, 2] bcast_S16x1280x1_S16x1280x1280_0_1_2 : (⟨S16x1280x1, .f32⟩ : BufTy).Contents (Elt F) → (⟨S16x1280x1280, .f32⟩ : BufTy).Contents (Elt F)),
    binary main_v19 main_v24 main_v25 (Host.divf : (⟨S16x1280x1280, .f32⟩ : BufTy).Contents (Elt F) → (⟨S16x1280x1280, .f32⟩ : BufTy).Contents (Elt F) → (⟨S16x1280x1280, .f32⟩ : BufTy).Contents (Elt F)),
    binary main_v25 main_v1 main_v26 ((fun l r => Host.dotGeneral dot_S16x1280x1280_S16x1280x128_S16x1280x128_2_1_1_2_0_0 none l r) : (⟨S16x1280x1280, .f32⟩ : BufTy).Contents (Elt F) → (⟨S16x1280x128, .f32⟩ : BufTy).Contents (Elt F) → (⟨S16x1280x128, .f32⟩ : BufTy).Contents (Elt F)),
    unary main_v26 main_v27 ((transpose S16x128x1280 [0, 2, 1] · transposes_S16x1280x128_S16x128x1280_0_2_1) : (⟨S16x1280x128, .f32⟩ : BufTy).Contents (Elt F) → (⟨S16x128x1280, .f32⟩ : BufTy).Contents (Elt F)),
    reshape main_v27 main_v28 rfl shapeCasts_S16x128x1280_S16x128x32x40,
    nullary main_cst_5 (constant S_ .f32 0x00000000#32),
    binary main_v28 main_cst_5 main_v29 ((fun x v => Host.reduceAdd x v reducesTo_S16x128x32x40_S16x128_d2_3 h_S_) : (⟨S16x128x32x40, .f32⟩ : BufTy).Contents (Elt F) → (⟨S_, .f32⟩ : BufTy).Contents (Elt F) → (⟨S16x128, .f32⟩ : BufTy).Contents (Elt F)),
    unary main_v29 main_v30 (broadcastInDim S16x128x1x1 ![0, 1] bcast_S16x128_S16x128x1x1_0_1 : (⟨S16x128, .f32⟩ : BufTy).Contents (Elt F) → (⟨S16x128x1x1, .f32⟩ : BufTy).Contents (Elt F)),
    nullary main_cst_6 (constant S_ .f32 0x44A00000#32),
    unary main_cst_6 main_v31 (broadcastInDim S16x128x1x1 ![] bcast_S_S16x128x1x1 : (⟨S_, .f32⟩ : BufTy).Contents (Elt F) → (⟨S16x128x1x1, .f32⟩ : BufTy).Contents (Elt F)),
    binary main_v30 main_v31 main_v32 (Host.divf : (⟨S16x128x1x1, .f32⟩ : BufTy).Contents (Elt F) → (⟨S16x128x1x1, .f32⟩ : BufTy).Contents (Elt F) → (⟨S16x128x1x1, .f32⟩ : BufTy).Contents (Elt F)),
    nullary main_c (constantI S_ 32 0#32),
    TRef.nullary main_call0.cst (constant S_ .f32 0x00000000#32),
    TRef.binary (.of main_v28) main_call0.cst main_call0.v0 (fun x v => Host.reduceAdd x v reducesTo_S16x128x32x40_S16x128_d2_3 h_S_),
    TRef.unary main_call0.v0 main_call0.v1 (broadcastInDim S16x128x1x1 ![0, 1] bcast_S16x128_S16x128x1x1_0_1),
    TRef.nullary main_call0.cst_0 (constant S_ .f32 0x44A00000#32),
    TRef.unary main_call0.cst_0 main_call0.v2 (broadcastInDim S16x128x1x1 ![] bcast_S_S16x128x1x1),
    TRef.binary main_call0.v1 main_call0.v2 main_call0.v3 Host.divf,
    TRef.unary main_call0.v3 main_call0.v4 (broadcastInDim S16x128x32x40 ![0, 1, 2, 3] bcast_S16x128x1x1_S16x128x32x40_0_1_2_3),
    TRef.binary (.of main_v28) main_call0.v4 main_call0.v5 subf,
    TRef.binary main_call0.v5 main_call0.v5 main_call0.v6 mulf,
    TRef.unary (.of main_c) main_call0.v7 (sitofp .f32),
    TRef.nullary main_call0.cst_1 (constant S_ .f32 0x44A00000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x128x32x40_S16x128_d2_3 h_S_),
    TRef.unary main_call0.v9 main_call0.v10 (broadcastInDim S16x128x1x1 ![0, 1] bcast_S16x128_S16x128x1x1_0_1),
    TRef.unary main_call0.v8 main_call0.v11 (broadcastInDim S16x128x1x1 ![] bcast_S_S16x128x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16x128x1x1 ![] bcast_S_S16x128x1x1),
    TRef.ternary main_call0.v13 main_call0.v12 main_call0.call0.v1 main_call0.call0.v2 (fun p a b => select (broadcastInDim S16x128x1x1 ![] bcast_S_S16x128x1x1 p) a b),
    unary main_v32 main_v34 (broadcastInDim S16x128x32x40 ![0, 1, 2, 3] bcast_S16x128x1x1_S16x128x32x40_0_1_2_3 : (⟨S16x128x1x1, .f32⟩ : BufTy).Contents (Elt F) → (⟨S16x128x32x40, .f32⟩ : BufTy).Contents (Elt F)),
    binary main_v28 main_v34 main_v35 (subf : (⟨S16x128x32x40, .f32⟩ : BufTy).Contents (Elt F) → (⟨S16x128x32x40, .f32⟩ : BufTy).Contents (Elt F) → (⟨S16x128x32x40, .f32⟩ : BufTy).Contents (Elt F)),
    nullary main_cst_7 (constant S_ .f32 0x3727C5AC#32),
    unary main_cst_7 main_v36 (broadcastInDim S16x128x1x1 ![] bcast_S_S16x128x1x1 : (⟨S_, .f32⟩ : BufTy).Contents (Elt F) → (⟨S16x128x1x1, .f32⟩ : BufTy).Contents (Elt F)),
    binary main_v33 main_v36 main_v37 (addf : (⟨S16x128x1x1, .f32⟩ : BufTy).Contents (Elt F) → (⟨S16x128x1x1, .f32⟩ : BufTy).Contents (Elt F) → (⟨S16x128x1x1, .f32⟩ : BufTy).Contents (Elt F)),
    unary main_v37 main_v38 (Host.rsqrt : (⟨S16x128x1x1, .f32⟩ : BufTy).Contents (Elt F) → (⟨S16x128x1x1, .f32⟩ : BufTy).Contents (Elt F)),
    unary main_v38 main_v39 (broadcastInDim S16x128x32x40 ![0, 1, 2, 3] bcast_S16x128x1x1_S16x128x32x40_0_1_2_3 : (⟨S16x128x1x1, .f32⟩ : BufTy).Contents (Elt F) → (⟨S16x128x32x40, .f32⟩ : BufTy).Contents (Elt F)),
    binary main_v35 main_v39 main_v40 (mulf : (⟨S16x128x32x40, .f32⟩ : BufTy).Contents (Elt F) → (⟨S16x128x32x40, .f32⟩ : BufTy).Contents (Elt F) → (⟨S16x128x32x40, .f32⟩ : BufTy).Contents (Elt F)),
    unary main_arg2 main_v41 (broadcastInDim S1x128x1x1 ![1] bcast_S128_S1x128x1x1_1 : (⟨S128, .f32⟩ : BufTy).Contents (Elt F) → (⟨S1x128x1x1, .f32⟩ : BufTy).Contents (Elt F)),
    unary main_v41 main_v42 (broadcastInDim S16x128x32x40 ![0, 1, 2, 3] bcast_S1x128x1x1_S16x128x32x40_0_1_2_3 : (⟨S1x128x1x1, .f32⟩ : BufTy).Contents (Elt F) → (⟨S16x128x32x40, .f32⟩ : BufTy).Contents (Elt F)),
    binary main_v40 main_v42 main_v43 (mulf : (⟨S16x128x32x40, .f32⟩ : BufTy).Contents (Elt F) → (⟨S16x128x32x40, .f32⟩ : BufTy).Contents (Elt F) → (⟨S16x128x32x40, .f32⟩ : BufTy).Contents (Elt F)),
    unary main_arg3 main_v44 (broadcastInDim S1x128x1x1 ![1] bcast_S128_S1x128x1x1_1 : (⟨S128, .f32⟩ : BufTy).Contents (Elt F) → (⟨S1x128x1x1, .f32⟩ : BufTy).Contents (Elt F)),
    unary main_v44 main_v45 (broadcastInDim S16x128x32x40 ![0, 1, 2, 3] bcast_S1x128x1x1_S16x128x32x40_0_1_2_3 : (⟨S1x128x1x1, .f32⟩ : BufTy).Contents (Elt F) → (⟨S16x128x32x40, .f32⟩ : BufTy).Contents (Elt F)),
    binary main_v43 main_v45 main_v46 (addf : (⟨S16x128x32x40, .f32⟩ : BufTy).Contents (Elt F) → (⟨S16x128x32x40, .f32⟩ : BufTy).Contents (Elt F) → (⟨S16x128x32x40, .f32⟩ : BufTy).Contents (Elt F)) ]

set_option maxRecDepth 8192 in
/-- @main is that straight line: with the helpers' bodies opened at their calls and sequencing reassociated,
    both sides are the same chain of steps. -/
theorem main_eq (c : Dev nD) : main (F := F) c = seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The result as a term, for any float values

The reference's stages composed in order, stated for any float values `F`; at the ideal values these are, name by
name, the stages of the composed term the certificate reads. -/

namespace T

/-- The input as batch × position × channel. -/
def xf (x : FVec F S16x128x32x40 .f32) : FVec F S16x1280x128 .f32 :=
  transpose S16x1280x128 [0, 2, 1] (shapeCast S16x128x1280 x shapeCasts_S16x128x32x40_S16x128x1280)
    transposes_S16x128x1280_S16x1280x128_0_2_1

/-- The similarities divided by the temperature. -/
def logits (x : FVec F S16x128x32x40 .f32) : FVec F S16x1280x1280 .f32 :=
  Host.divf (Host.dotGeneral dot_S16x1280x128_S16x1280x128_S16x1280x1280_2_2_1_1_0_0 none (xf x) (xf x))
    (broadcastInDim S16x1280x1280 ![] bcast_S_S16x1280x1280 (constant S_ .f32 0x41593924#32))

/-- The row maxima, joined with `-inf`. -/
def rowMax (x : FVec F S16x128x32x40 .f32) : FVec F S16x1280 .f32 :=
  maximumf (broadcastInDim S16x1280 ![] bcast_S_S16x1280 (constant S_ .f32 0xFF800000#32))
    (Host.reduce FloatOps.maximumf (logits x) (constant S_ .f32 0xFF800000#32) reducesTo_S16x1280x1280_S16x1280_d2 h_S_)

/-- The exponentials of the shifted similarities. -/
def expo (x : FVec F S16x128x32x40 .f32) : FVec F S16x1280x1280 .f32 :=
  Host.exp (subf (logits x)
    (broadcastInDim S16x1280x1280 ![0, 1, 2] bcast_S16x1280x1_S16x1280x1280_0_1_2
      (broadcastInDim S16x1280x1 ![0, 1] bcast_S16x1280_S16x1280x1_0_1 (rowMax x))))

/-- The softmax. -/
def att (x : FVec F S16x128x32x40 .f32) : FVec F S16x1280x1280 .f32 :=
  Host.divf (expo x)
    (broadcastInDim S16x1280x1280 ![0, 1, 2] bcast_S16x1280x1_S16x1280x1280_0_1_2
      (broadcastInDim S16x1280x1 ![0, 1] bcast_S16x1280_S16x1280x1_0_1
        (Host.reduceAdd (expo x) (constant S_ .f32 0x00000000#32) reducesTo_S16x1280x1280_S16x1280_d2 h_S_)))

/-- The softmax times the distance weights. -/
def w0 (x : FVec F S16x128x32x40 .f32) (p : FVec F S32x40x32x40 .f32) : FVec F S16x1280x1280 .f32 :=
  mulf (att x)
    (broadcastInDim S16x1280x1280 ![0, 1, 2] bcast_S1x1280x1280_S16x1280x1280_0_1_2
      (broadcastInDim S1x1280x1280 ![1, 2] bcast_S1280x1280_S1x1280x1280_1_2
        (shapeCast S1280x1280 p shapeCasts_S32x40x32x40_S1280x1280)))

/-- The renormalised weights. -/
def wts (x : FVec F S16x128x32x40 .f32) (p : FVec F S32x40x32x40 .f32) : FVec F S16x1280x1280 .f32 :=
  Host.divf (w0 x p)
    (broadcastInDim S16x1280x1280 ![0, 1, 2] bcast_S16x1280x1_S16x1280x1280_0_1_2
      (addf
        (broadcastInDim S16x1280x1 ![0, 1] bcast_S16x1280_S16x1280x1_0_1
          (Host.reduceAdd (w0 x p) (constant S_ .f32 0x00000000#32) reducesTo_S16x1280x1280_S16x1280_d2 h_S_))
        (broadcastInDim S16x1280x1 ![] bcast_S_S16x1280x1 (constant S_ .f32 0x322BCC77#32))))

/-- The aggregate, back in the input's layout. -/
def agg (x : FVec F S16x128x32x40 .f32) (p : FVec F S32x40x32x40 .f32) : FVec F S16x128x32x40 .f32 :=
  shapeCast S16x128x32x40
    (transpose S16x128x1280 [0, 2, 1]
      (Host.dotGeneral dot_S16x1280x1280_S16x1280x128_S16x1280x128_2_1_1_2_0_0 none (wts x p) (xf x))
      transposes_S16x1280x128_S16x128x1280_0_2_1)
    shapeCasts_S16x128x1280_S16x128x32x40

/-- The per-channel mean over the positions. -/
def meanR (a : FVec F S16x128x32x40 .f32) : FVec F S16x128x1x1 .f32 :=
  Host.divf
    (broadcastInDim S16x128x1x1 ![0, 1] bcast_S16x128_S16x128x1x1_0_1
      (Host.reduceAdd a (constant S_ .f32 0x00000000#32) reducesTo_S16x128x32x40_S16x128_d2_3 h_S_))
    (broadcastInDim S16x128x1x1 ![] bcast_S_S16x128x1x1 (constant S_ .f32 0x44A00000#32))

/-- The deviations from the mean. -/
def centered (a : FVec F S16x128x32x40 .f32) : FVec F S16x128x32x40 .f32 :=
  subf a (broadcastInDim S16x128x32x40 ![0, 1, 2, 3] bcast_S16x128x1x1_S16x128x32x40_0_1_2_3 (meanR a))

/-- The variance's divisor: the count minus the (zero) degrees of freedom correction. -/
def dof : FVec F S_ .f32 :=
  subf (constant S_ .f32 0x44A00000#32) (sitofp .f32 (constantI S_ 32 0#32))

/-- The biased variance, guarded by the helper's `where` on a positive divisor. -/
def varR (a : FVec F S16x128x32x40 .f32) : FVec F S16x128x1x1 .f32 :=
  select (broadcastInDim S16x128x1x1 ![] bcast_S_S16x128x1x1 (cmpf .ogt (dof (F := F)) (constant S_ .f32 0x00000000#32)))
    (Host.divf
      (broadcastInDim S16x128x1x1 ![0, 1] bcast_S16x128_S16x128x1x1_0_1
        (Host.reduceAdd (mulf (centered a) (centered a)) (constant S_ .f32 0x00000000#32)
          reducesTo_S16x128x32x40_S16x128_d2_3 h_S_))
      (broadcastInDim S16x128x1x1 ![] bcast_S_S16x128x1x1 (dof (F := F))))
    (broadcastInDim S16x128x1x1 ![] bcast_S_S16x128x1x1 (id (constant S_ .f32 0x7FC00000#32)))

/-- The normalisation and the affine map. -/
def tail (a : FVec F S16x128x32x40 .f32) (g b : FVec F S128 .f32) : FVec F S16x128x32x40 .f32 :=
  addf
    (mulf
      (mulf (centered a)
        (broadcastInDim S16x128x32x40 ![0, 1, 2, 3] bcast_S16x128x1x1_S16x128x32x40_0_1_2_3
          (Host.rsqrt (addf (varR a)
            (broadcastInDim S16x128x1x1 ![] bcast_S_S16x128x1x1 (constant S_ .f32 0x3727C5AC#32))))))
      (broadcastInDim S16x128x32x40 ![0, 1, 2, 3] bcast_S1x128x1x1_S16x128x32x40_0_1_2_3
        (broadcastInDim S1x128x1x1 ![1] bcast_S128_S1x128x1x1_1 g)))
    (broadcastInDim S16x128x32x40 ![0, 1, 2, 3] bcast_S1x128x1x1_S16x128x32x40_0_1_2_3
      (broadcastInDim S1x128x1x1 ![1] bcast_S128_S1x128x1x1_1 b))

/-- The reference's result. -/
def out (x : FVec F S16x128x32x40 .f32) (p : FVec F S32x40x32x40 .f32) (g b : FVec F S128 .f32) :
    FVec F S16x128x32x40 .f32 :=
  tail (agg x p) g b

end T

attribute [local irreducible] Host.reduce Host.reduceAdd Host.divf Host.exp Host.rsqrt broadcastInDim transpose shapeCast in
set_option maxRecDepth 8192 in
set_option maxHeartbeats 1000000 in
/-- The fold of the operations at the result buffer is the composed term: each operation's result at its own
    buffer is its function of its operands' contents, elsewhere what was there; the helpers' typed references
    carry the buffers' own types, so their transports are the identity; a reshape's result is the cast itself.
    The reductions, quotients and layout maps stay folded: the equation never looks inside them. -/
theorem out_eq (V : Valuation τ sig (Elt F)) :
    after ops V (main_v46 : DevRef τ sig)
      = T.out (V (main_arg0 : DevRef τ sig)) (V (main_arg1 : DevRef τ sig)) (V (main_arg2 : DevRef τ sig))
          (V (main_arg3 : DevRef τ sig)) := by
  after_results_simp
  simp only [TRef.ofBuf, TRef.toBuf, cast_eq]
  simp only [T.out, T.tail, T.varR, T.dof, T.centered, T.meanR, T.agg, T.wts, T.w0, T.att, T.expo, T.rowMax, T.logits, T.xf]
  rfl

/-! No operation writes an argument. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

end Generic

/-- At the ideal values the stages above are the certificate's composed term, stage by stage. -/
theorem out_ideal (x : FVec Ideal S16x128x32x40 .f32) (p : FVec Ideal S32x40x32x40 .f32) (g b : FVec Ideal S128 .f32) :
    T.out (F := Ideal) x p g b = Cert.RefTerm.out x p g b := rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46)
          = Cert.RefTerm.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v46).trans ((out_eq (launchContents m c)).trans (out_ideal _ _ _ _)),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_seq scopedRefs_eq scopedSems_eq defs main (fun _ => ops) main_eq (fun _ => ops_sub) m ρ)

end Cert.ReferenceIdeal.RefRun

end
-- ==== Proof.RefReadAttn.lean ====
/-
  The reference's attention-weighted aggregate read at an index: batch b, channel c, position (h, w).

  Every stage of the reference's term is read at an index whose coordinates are variables, innermost first:
  the re-laid input, the similarities over the temperature, the row maximum, the exponentials, the softmax,
  the softmax times the distance weights, the renormalised weights, and last the aggregate with its closing
  transpose and reshape. Each reading says that the stage at (b, i, j) is the corresponding function of the
  specification for batch element b, query position i and position j.
-/
import proofs.«406174_j72584947303115_3_alg».proof.Proof.RefTerm
import proofs.«406174_j72584947303115_3_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

namespace Cert.RefTerm

open Idealize.ShloMosaic Idealize.ShloMosaic.ValueIdx Cert.ReferenceIdeal Cert.ReferenceIdeal.Gen

/-! ## The input re-laid as batch × position × channel -/

/-- Position `i` of the flattened 32 × 40 grid is row `i / 40`, column `i % 40`: the reshape keeps the
    row-major order and the transpose swaps the channel and position axes. -/
private theorem xf_apply (x : FVec Ideal S16x128x32x40 .f32) (b : Fin 16) (i : Fin 1280) (d : Fin 128) :
    xf x (ix3 b i d) = Cert.Spec.xAt x b d i := by
  unfold xf
  refine (transpose_apply [0, 2, 1] _ transposes_S16x128x1280_S16x1280x128_0_2_1 (ix3 b i d) (ix3 b d i) ?_).trans ?_
  · intro a
    match a with
    | ⟨0, _⟩ => rfl
    | ⟨1, _⟩ => rfl
    | ⟨2, _⟩ => rfl
  · refine (shapeCast_apply x shapeCasts_S16x128x32x40_S16x128x1280 (ix3 b d i)
      (ix4 b d (Cert.Spec.hOf i) (Cert.Spec.wOf i)) ?_).trans rfl
    rw [Shape.rowMajor_val_four, Shape.rowMajor_val_three]
    show ((b.val * 128 + d.val) * 32 + i.val / 40) * 40 + i.val % 40 = (b.val * 128 + d.val) * 1280 + i.val
    omega

/-! ## The similarities: a batched contraction over the channel axis

The first contraction keeps the batch axis, contracts the channel axis of both operands and puts the left
operand's position before the right operand's. Its operand indices at the result index (b, i, j) and
channel k are (b, i, k) and (b, j, k). -/

private theorem simL_0 (b : Fin 16) (i j : Fin 1280)
    (k : dot_S16x1280x128_S16x1280x128_S16x1280x1280_2_2_1_1_0_0.contr.Idx) :
    (dot_S16x1280x128_S16x1280x128_S16x1280x1280_2_2_1_1_0_0.lhsIdx (ix3 b i j) k 0).val = b.val := rfl
private theorem simL_1 (b : Fin 16) (i j : Fin 1280)
    (k : dot_S16x1280x128_S16x1280x128_S16x1280x1280_2_2_1_1_0_0.contr.Idx) :
    (dot_S16x1280x128_S16x1280x128_S16x1280x1280_2_2_1_1_0_0.lhsIdx (ix3 b i j) k 1).val = i.val := rfl
private theorem simL_2 (b : Fin 16) (i j : Fin 1280)
    (k : dot_S16x1280x128_S16x1280x128_S16x1280x1280_2_2_1_1_0_0.contr.Idx) :
    (dot_S16x1280x128_S16x1280x128_S16x1280x1280_2_2_1_1_0_0.lhsIdx (ix3 b i j) k 2).val
      = (k ⟨0, by decide⟩).val := rfl
private theorem simR_0 (b : Fin 16) (i j : Fin 1280)
    (k : dot_S16x1280x128_S16x1280x128_S16x1280x1280_2_2_1_1_0_0.contr.Idx) :
    (dot_S16x1280x128_S16x1280x128_S16x1280x1280_2_2_1_1_0_0.rhsIdx (ix3 b i j) k 0).val = b.val := rfl
private theorem simR_1 (b : Fin 16) (i j : Fin 1280)
    (k : dot_S16x1280x128_S16x1280x128_S16x1280x1280_2_2_1_1_0_0.contr.Idx) :
    (dot_S16x1280x128_S16x1280x128_S16x1280x1280_2_2_1_1_0_0.rhsIdx (ix3 b i j) k 1).val = j.val := rfl
private theorem simR_2 (b : Fin 16) (i j : Fin 1280)
    (k : dot_S16x1280x128_S16x1280x128_S16x1280x1280_2_2_1_1_0_0.contr.Idx) :
    (dot_S16x1280x128_S16x1280x128_S16x1280x1280_2_2_1_1_0_0.rhsIdx (ix3 b i j) k 2).val
      = (k ⟨0, by decide⟩).val := rfl

/-- The first contraction read at (b, i, j): the sum over the channels of the two rows' products. -/
private theorem sim_apply (l r : FVec Ideal S16x1280x128 .f32) (b : Fin 16) (i j : Fin 1280) :
    Host.dotGeneral dot_S16x1280x128_S16x1280x128_S16x1280x1280_2_2_1_1_0_0 none l r (ix3 b i j)
      = ∑ c : Fin 128, l (ix3 b i c) * r (ix3 b j c) := by
  refine (Ideal.dotGeneral_apply dot_S16x1280x128_S16x1280x128_S16x1280x1280_2_2_1_1_0_0 none .single l r (ix3 b i j)).trans ?_
  refine (Equiv.sum_comp (contrEquiv1 dot_S16x1280x128_S16x1280x128_S16x1280x1280_2_2_1_1_0_0 128 rfl rfl).symm _).symm.trans ?_
  refine Finset.sum_congr rfl fun c _ => ?_
  have hk := contrEquiv1_symm_val dot_S16x1280x128_S16x1280x128_S16x1280x1280_2_2_1_1_0_0 128 rfl rfl c
  have hl : dot_S16x1280x128_S16x1280x128_S16x1280x1280_2_2_1_1_0_0.lhsIdx (ix3 b i j) ((contrEquiv1 dot_S16x1280x128_S16x1280x128_S16x1280x1280_2_2_1_1_0_0 128 rfl rfl).symm c) = ix3 b i c := by
    funext a; apply Fin.ext
    match a with
    | ⟨0, _⟩ => exact simL_0 _ _ _ _
    | ⟨1, _⟩ => exact simL_1 _ _ _ _
    | ⟨2, _⟩ => exact (simL_2 _ _ _ _).trans hk
  have hr : dot_S16x1280x128_S16x1280x128_S16x1280x1280_2_2_1_1_0_0.rhsIdx (ix3 b i j) ((contrEquiv1 dot_S16x1280x128_S16x1280x128_S16x1280x1280_2_2_1_1_0_0 128 rfl rfl).symm c) = ix3 b j c := by
    funext a; apply Fin.ext
    match a with
    | ⟨0, _⟩ => exact simR_0 _ _ _ _
    | ⟨1, _⟩ => exact simR_1 _ _ _ _
    | ⟨2, _⟩ => exact (simR_2 _ _ _ _).trans hk
  exact congrArg₂ (· * ·) (congrArg l hl) (congrArg r hr)

/-- The similarity of positions i and j of batch element b, over the temperature. -/
private theorem logits_apply (x : FVec Ideal S16x128x32x40 .f32) (b : Fin 16) (i j : Fin 1280) :
    logits x (ix3 b i j) = Cert.Spec.logitR (Cert.Spec.xAt x b) (fun d => Cert.Spec.xAt x b d i) j := by
  unfold logits
  refine (hostDivf_apply _ _ _).trans ?_
  unfold Cert.Spec.logitR Cert.Spec.sim Cert.Spec.temp
  refine congrArg₂ Ideal.div ?_ ?_
  · refine (sim_apply _ _ b i j).trans (Finset.sum_congr rfl fun c _ => ?_)
    rw [xf_apply, xf_apply]
  · exact broadcastInDim_scalar_apply _ _ _

/-! ## Reductions along a row, and values broadcast back along it -/

/-- The shape fact the row reductions' inserted index is defined from. -/
private theorem redRow : S16x1280x1280.Reduces [2] S16x1280 := by decide

/-- The index over (b, i) with k inserted on the reduced axis is (b, i, k). -/
private theorem liftRow (b : Fin 16) (i k : Fin 1280) : redRow.lift (ix2 b i) k = ix3 b i k := by
  funext a; apply Fin.ext
  match a with
  | ⟨0, _⟩ => rfl
  | ⟨1, _⟩ => rfl
  | ⟨2, _⟩ => rfl

/-- A sum along a row from the zero word: the sum of the row's entries. -/
private theorem rowSum_apply (v : FVec Ideal S16x1280x1280 .f32) (b : Fin 16) (i : Fin 1280) :
    Host.reduceAdd v (constant (F := Ideal) S_ .f32 0x00000000#32) reducesTo_S16x1280x1280_S16x1280_d2 h_S_ (ix2 b i)
      = ∑ j : Fin 1280, v (ix3 b i j) := by
  refine (hostReduceAdd_apply v _ _ _ _).trans ?_
  refine (Ideal.hostReduceAdd_single reducesTo_S16x1280x1280_S16x1280_d2 redRow v _ (ix2 b i)).trans ?_
  show Ideal.ofBits .f32 0x00000000#32 + ∑ k : Fin 1280, v (redRow.lift (ix2 b i) k) = _
  rw [Ideal.ofBits_zero_f32, zero_add]
  exact Finset.sum_congr rfl fun k _ => by rw [liftRow]

/-- A column of per-row values broadcast along the rows reads the row's value. -/
private theorem colBcast_apply (u : FVec Ideal S16x1280x1 .f32) (b : Fin 16) (i j : Fin 1280) :
    broadcastInDim S16x1280x1280 ![0, 1, 2] bcast_S16x1280x1_S16x1280x1280_0_1_2 u (ix3 b i j)
      = u (ix3 b i (0 : Fin 1)) := by
  refine broadcastInDim_apply _ _ u (ix3 b i j) (ix3 b i (0 : Fin 1)) ?_
  intro a
  match a with
  | ⟨0, _⟩ => rfl
  | ⟨1, _⟩ => rfl
  | ⟨2, _⟩ => rfl

/-- Per-row values given a trailing unit axis. -/
private theorem keep_apply (v : FVec Ideal S16x1280 .f32) (b : Fin 16) (i : Fin 1280) :
    broadcastInDim S16x1280x1 ![0, 1] bcast_S16x1280_S16x1280x1_0_1 v (ix3 b i (0 : Fin 1)) = v (ix2 b i) := by
  refine broadcastInDim_apply _ _ v (ix3 b i (0 : Fin 1)) (ix2 b i) ?_
  intro a
  match a with
  | ⟨0, _⟩ => rfl
  | ⟨1, _⟩ => rfl

/-! ## The softmax of a row -/

/-- The row maximum joined with minus infinity. -/
private theorem rowMax_apply (x : FVec Ideal S16x128x32x40 .f32) (b : Fin 16) (i : Fin 1280) :
    rowMax x (ix2 b i) = Cert.Spec.maxR (Cert.Spec.xAt x b) (fun d => Cert.Spec.xAt x b d i) := by
  unfold rowMax
  refine (maximumf_apply _ _ _).trans ?_
  unfold Cert.Spec.maxR Cert.Spec.negInf
  refine congrArg₂ max ?_ ?_
  · exact broadcastInDim_scalar_apply _ _ _
  · refine (Host.reduce_eq_fold_single FloatOps.maximumf (logits x) _ reducesTo_S16x1280x1280_S16x1280_d2
      redRow h_S_ (ix2 b i)).trans ?_
    show (Finset.univ : Finset (Fin 1280)).fold max (Ideal.ofBits .f32 0xFF800000#32)
      (fun k => logits x (redRow.lift (ix2 b i) k)) = _
    refine congrArg (fun f => (Finset.univ : Finset (Fin 1280)).fold max (Ideal.ofBits .f32 0xFF800000#32) f)
      (funext fun k : Fin 1280 => ?_)
    exact (congrArg (logits x) (liftRow b i k)).trans (logits_apply x b i k)

/-- The exponential of the similarity less the row maximum. -/
private theorem expo_apply (x : FVec Ideal S16x128x32x40 .f32) (b : Fin 16) (i j : Fin 1280) :
    expo x (ix3 b i j) = Cert.Spec.expR (Cert.Spec.xAt x b) (fun d => Cert.Spec.xAt x b d i) j := by
  unfold expo
  show Ideal.exp (logits x (ix3 b i j) - _) = _
  unfold Cert.Spec.expR
  refine congrArg Ideal.exp (congrArg₂ (· - ·) (logits_apply x b i j) ?_)
  exact (colBcast_apply _ b i j).trans ((keep_apply _ b i).trans (rowMax_apply x b i))

/-- The softmax. -/
private theorem att_apply (x : FVec Ideal S16x128x32x40 .f32) (b : Fin 16) (i j : Fin 1280) :
    att x (ix3 b i j) = Cert.Spec.attR (Cert.Spec.xAt x b) (fun d => Cert.Spec.xAt x b d i) j := by
  unfold att
  refine (hostDivf_apply _ _ _).trans ?_
  unfold Cert.Spec.attR Cert.Spec.sumR
  refine congrArg₂ Ideal.div (expo_apply x b i j) ?_
  refine (colBcast_apply _ b i j).trans ((keep_apply _ b i).trans ((rowSum_apply _ b i).trans ?_))
  exact Finset.sum_congr rfl fun k _ => expo_apply x b i k

/-! ## The distance weights -/

/-- The distance weights reshaped to position × position and repeated over the batch: the reshape keeps the
    row-major order, so both positions split as row `/ 40`, column `% 40`. -/
private theorem pw_apply (p : FVec Ideal S32x40x32x40 .f32) (b : Fin 16) (i j : Fin 1280) :
    broadcastInDim S16x1280x1280 ![0, 1, 2] bcast_S1x1280x1280_S16x1280x1280_0_1_2
      (broadcastInDim S1x1280x1280 ![1, 2] bcast_S1280x1280_S1x1280x1280_1_2
        (shapeCast S1280x1280 p shapeCasts_S32x40x32x40_S1280x1280)) (ix3 b i j) = Cert.Spec.pAt p i j := by
  refine (broadcastInDim_apply _ _ _ (ix3 b i j) (ix3 (0 : Fin 1) i j) ?_).trans ?_
  · intro a
    match a with
    | ⟨0, _⟩ => rfl
    | ⟨1, _⟩ => rfl
    | ⟨2, _⟩ => rfl
  refine (broadcastInDim_apply _ _ _ (ix3 (0 : Fin 1) i j) (ix2 i j) ?_).trans ?_
  · intro a
    match a with
    | ⟨0, _⟩ => rfl
    | ⟨1, _⟩ => rfl
  refine (shapeCast_apply p shapeCasts_S32x40x32x40_S1280x1280 (ix2 i j)
    (ix4 (Cert.Spec.hOf i) (Cert.Spec.wOf i) (Cert.Spec.hOf j) (Cert.Spec.wOf j)) ?_).trans rfl
  rw [Shape.rowMajor_val_four, Shape.rowMajor_val_two]
  show ((i.val / 40 * 40 + i.val % 40) * 32 + j.val / 40) * 40 + j.val % 40 = i.val * 1280 + j.val
  omega

/-- The softmax times the distance weights. -/
private theorem w0_apply (x : FVec Ideal S16x128x32x40 .f32) (p : FVec Ideal S32x40x32x40 .f32)
    (b : Fin 16) (i j : Fin 1280) :
    w0 x p (ix3 b i j)
      = Cert.Spec.w0R (Cert.Spec.xAt x b) (fun d => Cert.Spec.xAt x b d i) (Cert.Spec.pAt p i) j := by
  unfold w0
  refine (mulf_apply _ _ _).trans ?_
  unfold Cert.Spec.w0R
  exact congrArg₂ (· * ·) (att_apply x b i j) (pw_apply p b i j)

/-- The renormalised weights. -/
private theorem wts_apply (x : FVec Ideal S16x128x32x40 .f32) (p : FVec Ideal S32x40x32x40 .f32)
    (b : Fin 16) (i j : Fin 1280) :
    wts x p (ix3 b i j)
      = Cert.Spec.wR (Cert.Spec.xAt x b) (fun d => Cert.Spec.xAt x b d i) (Cert.Spec.pAt p i) j := by
  unfold wts
  refine (hostDivf_apply _ _ _).trans ?_
  unfold Cert.Spec.wR Cert.Spec.denR Cert.Spec.tiny
  refine congrArg₂ Ideal.div (w0_apply x p b i j) ?_
  refine (colBcast_apply _ b i j).trans ((addf_apply _ _ _).trans (congrArg₂ (· + ·) ?_ ?_))
  · refine (keep_apply _ b i).trans ((rowSum_apply _ b i).trans ?_)
    exact Finset.sum_congr rfl fun k _ => w0_apply x p b i k
  · exact broadcastInDim_scalar_apply _ _ _

/-! ## The aggregate: a batched contraction over the positions

The second contraction keeps the batch axis and contracts the weights' last axis with the positions of the
re-laid input. Its operand indices at the result index (b, i, c) and position k are (b, i, k) and (b, k, c). -/

private theorem aggL_0 (b : Fin 16) (i : Fin 1280) (c : Fin 128)
    (k : dot_S16x1280x1280_S16x1280x128_S16x1280x128_2_1_1_2_0_0.contr.Idx) :
    (dot_S16x1280x1280_S16x1280x128_S16x1280x128_2_1_1_2_0_0.lhsIdx (ix3 b i c) k 0).val = b.val := rfl
private theorem aggL_1 (b : Fin 16) (i : Fin 1280) (c : Fin 128)
    (k : dot_S16x1280x1280_S16x1280x128_S16x1280x128_2_1_1_2_0_0.contr.Idx) :
    (dot_S16x1280x1280_S16x1280x128_S16x1280x128_2_1_1_2_0_0.lhsIdx (ix3 b i c) k 1).val = i.val := rfl
private theorem aggL_2 (b : Fin 16) (i : Fin 1280) (c : Fin 128)
    (k : dot_S16x1280x1280_S16x1280x128_S16x1280x128_2_1_1_2_0_0.contr.Idx) :
    (dot_S16x1280x1280_S16x1280x128_S16x1280x128_2_1_1_2_0_0.lhsIdx (ix3 b i c) k 2).val = (k ⟨0, by decide⟩).val := rfl
private theorem aggR_0 (b : Fin 16) (i : Fin 1280) (c : Fin 128)
    (k : dot_S16x1280x1280_S16x1280x128_S16x1280x128_2_1_1_2_0_0.contr.Idx) :
    (dot_S16x1280x1280_S16x1280x128_S16x1280x128_2_1_1_2_0_0.rhsIdx (ix3 b i c) k 0).val = b.val := rfl
private theorem aggR_1 (b : Fin 16) (i : Fin 1280) (c : Fin 128)
    (k : dot_S16x1280x1280_S16x1280x128_S16x1280x128_2_1_1_2_0_0.contr.Idx) :
    (dot_S16x1280x1280_S16x1280x128_S16x1280x128_2_1_1_2_0_0.rhsIdx (ix3 b i c) k 1).val = (k ⟨0, by decide⟩).val := rfl
private theorem aggR_2 (b : Fin 16) (i : Fin 1280) (c : Fin 128)
    (k : dot_S16x1280x1280_S16x1280x128_S16x1280x128_2_1_1_2_0_0.contr.Idx) :
    (dot_S16x1280x1280_S16x1280x128_S16x1280x128_2_1_1_2_0_0.rhsIdx (ix3 b i c) k 2).val = c.val := rfl

/-- The second contraction read at (b, i, c): the sum over the positions of weight times input. -/
private theorem wsum_apply (l : FVec Ideal S16x1280x1280 .f32) (r : FVec Ideal S16x1280x128 .f32)
    (b : Fin 16) (i : Fin 1280) (c : Fin 128) :
    Host.dotGeneral dot_S16x1280x1280_S16x1280x128_S16x1280x128_2_1_1_2_0_0 none l r (ix3 b i c)
      = ∑ k : Fin 1280, l (ix3 b i k) * r (ix3 b k c) := by
  refine (Ideal.dotGeneral_apply dot_S16x1280x1280_S16x1280x128_S16x1280x128_2_1_1_2_0_0 none .single l r (ix3 b i c)).trans ?_
  refine (Equiv.sum_comp (contrEquiv1 dot_S16x1280x1280_S16x1280x128_S16x1280x128_2_1_1_2_0_0 1280 rfl rfl).symm _).symm.trans ?_
  refine Finset.sum_congr rfl fun k _ => ?_
  have hk := contrEquiv1_symm_val dot_S16x1280x1280_S16x1280x128_S16x1280x128_2_1_1_2_0_0 1280 rfl rfl k
  have hl : dot_S16x1280x1280_S16x1280x128_S16x1280x128_2_1_1_2_0_0.lhsIdx (ix3 b i c) ((contrEquiv1 dot_S16x1280x1280_S16x1280x128_S16x1280x128_2_1_1_2_0_0 1280 rfl rfl).symm k) = ix3 b i k := by
    funext a; apply Fin.ext
    match a with
    | ⟨0, _⟩ => exact aggL_0 _ _ _ _
    | ⟨1, _⟩ => exact aggL_1 _ _ _ _
    | ⟨2, _⟩ => exact (aggL_2 _ _ _ _).trans hk
  have hr : dot_S16x1280x1280_S16x1280x128_S16x1280x128_2_1_1_2_0_0.rhsIdx (ix3 b i c) ((contrEquiv1 dot_S16x1280x1280_S16x1280x128_S16x1280x128_2_1_1_2_0_0 1280 rfl rfl).symm k) = ix3 b k c := by
    funext a; apply Fin.ext
    match a with
    | ⟨0, _⟩ => exact aggR_0 _ _ _ _
    | ⟨1, _⟩ => exact (aggR_1 _ _ _ _).trans hk
    | ⟨2, _⟩ => exact aggR_2 _ _ _ _
  exact congrArg₂ (· * ·) (congrArg l hl) (congrArg r hr)

/-- The closing transpose and reshape put the aggregate of batch b, position `40 * h + w`, channel c at
    (b, c, h, w). -/
theorem agg_apply (x : FVec Ideal S16x128x32x40 .f32) (p : FVec Ideal S32x40x32x40 .f32)
    (b : Fin 16) (c : Fin 128) (h : Fin 32) (w : Fin 40) :
    agg x p (ix4 b c h w)
      = Cert.Spec.aggR (Cert.Spec.xAt x b) (fun d => Cert.Spec.xAt x b d (Cert.Spec.posOf h w))
          (Cert.Spec.pAt p (Cert.Spec.posOf h w)) c := by
  unfold agg
  refine (shapeCast_apply _ shapeCasts_S16x128x1280_S16x128x32x40 (ix4 b c h w)
    (ix3 b c (Cert.Spec.posOf h w)) ?_).trans ?_
  · rw [Shape.rowMajor_val_three, Shape.rowMajor_val_four]
    show (b.val * 128 + c.val) * 1280 + (40 * h.val + w.val) = ((b.val * 128 + c.val) * 32 + h.val) * 40 + w.val
    omega
  refine (transpose_apply [0, 2, 1] _ transposes_S16x1280x128_S16x128x1280_0_2_1
    (ix3 b c (Cert.Spec.posOf h w)) (ix3 b (Cert.Spec.posOf h w) c) ?_).trans ?_
  · intro a
    match a with
    | ⟨0, _⟩ => rfl
    | ⟨1, _⟩ => rfl
    | ⟨2, _⟩ => rfl
  refine (wsum_apply _ _ b (Cert.Spec.posOf h w) c).trans ?_
  unfold Cert.Spec.aggR
  exact Finset.sum_congr rfl fun k _ =>
    congrArg₂ (· * ·) (wts_apply x p b (Cert.Spec.posOf h w) k) (xf_apply x b k c)

end Cert.RefTerm

end
-- ==== Proof.RefReadTail.lean ====
/-
  The reference's normalisation read at an index: per (batch, channel) the mean and the biased variance over
  the 32 × 40 positions, the reciprocal square root, the affine map.
-/
import proofs.«406174_j72584947303115_3_alg».proof.Proof.RefTerm
import proofs.«406174_j72584947303115_3_alg».proof.Proof.Spec
import Idealize.ShloMosaic.PureOps.Ideal.Laws
import Idealize.ShloMosaic.Lib.ValueIdx
import Idealize.ShloMosaic.Lib.Pipeline.Value

noncomputable section

namespace Cert.RefTerm

open Idealize.ShloMosaic Idealize.ShloMosaic.ValueIdx Cert.ReferenceIdeal Cert.ReferenceIdeal.Gen

/-! ## The broadcasts of this tail, read at an index -/

section Broadcasts
variable {α : Type}

/-- A scalar broadcast to any shape reads the scalar. -/
private theorem bcS {T : Shape} (h : S_.BroadcastsInDim T ![]) (x : S_.Idx → α) (j : T.Idx) :
    broadcastInDim T ![] h x j = x ix0 :=
  broadcastInDim_apply _ h x j ix0 (fun a => a.elim0)

/-- [16, 128] placed on the two leading axes of [16, 128, 1, 1]. -/
private theorem bc24 (x : S16x128.Idx → α) (b : Fin 16) (c : Fin 128) :
    broadcastInDim S16x128x1x1 ![0, 1] bcast_S16x128_S16x128x1x1_0_1 x (ix4 b c 0 0) = x (ix2 b c) :=
  broadcastInDim_apply _ _ x _ (ix2 b c) (fun a => match a with | ⟨0, _⟩ => rfl | ⟨1, _⟩ => rfl)

/-- [16, 128, 1, 1] spread over the 32 × 40 positions. -/
private theorem bc44 (x : S16x128x1x1.Idx → α) (b : Fin 16) (c : Fin 128) (h : Fin 32) (w : Fin 40) :
    broadcastInDim S16x128x32x40 ![0, 1, 2, 3] bcast_S16x128x1x1_S16x128x32x40_0_1_2_3 x (ix4 b c h w)
      = x (ix4 b c 0 0) :=
  broadcastInDim_apply _ _ x _ (ix4 b c 0 0)
    (fun a => match a with | ⟨0, _⟩ => rfl | ⟨1, _⟩ => rfl | ⟨2, _⟩ => rfl | ⟨3, _⟩ => rfl)

/-- [1, 128, 1, 1] spread over the batch and the positions. -/
private theorem bc14 (x : S1x128x1x1.Idx → α) (b : Fin 16) (c : Fin 128) (h : Fin 32) (w : Fin 40) :
    broadcastInDim S16x128x32x40 ![0, 1, 2, 3] bcast_S1x128x1x1_S16x128x32x40_0_1_2_3 x (ix4 b c h w)
      = x (ix4 0 c 0 0) :=
  broadcastInDim_apply _ _ x _ (ix4 0 c 0 0)
    (fun a => match a with | ⟨0, _⟩ => rfl | ⟨1, _⟩ => rfl | ⟨2, _⟩ => rfl | ⟨3, _⟩ => rfl)

/-- A per-channel vector placed on axis 1 of [1, 128, 1, 1]. -/
private theorem bc11 (x : S128.Idx → α) (c : Fin 128) :
    broadcastInDim S1x128x1x1 ![1] bcast_S128_S1x128x1x1_1 x (ix4 0 c 0 0) = x (ix1 c) :=
  broadcastInDim_apply _ _ x _ (ix1 c) (fun a => match a with | ⟨0, _⟩ => rfl)

end Broadcasts

/-! ## The sum over the 32 × 40 positions of one (batch, channel) pair -/

/-- The indices of the input that drop to (b, c) are those whose two leading coordinates are b and c. -/
private theorem drop_iff (i : S16x128x32x40.Idx) (b : Fin 16) (c : Fin 128) :
    reducesTo_S16x128x32x40_S16x128_d2_3.drop i = ix2 b c ↔ (i 0 = b ∧ i 1 = c) := by
  have h0 : ((reducesTo_S16x128x32x40_S16x128_d2_3.drop i 0 : Fin _) : Nat) = i 0 :=
    Shape.ReducesTo.drop_apply_val_of_eq _ i 0 0
  have h1 : ((reducesTo_S16x128x32x40_S16x128_d2_3.drop i 1 : Fin _) : Nat) = i 1 :=
    Shape.ReducesTo.drop_apply_val_of_eq _ i 1 1
  constructor
  · intro e
    rw [e] at h0 h1
    exact ⟨Fin.ext h0.symm, Fin.ext h1.symm⟩
  · rintro ⟨e0, e1⟩
    funext a
    match a with
    | ⟨0, _⟩ => exact Fin.ext (h0.trans (congrArg Fin.val e0))
    | ⟨1, _⟩ => exact Fin.ext (h1.trans (congrArg Fin.val e1))

/-- The host's sum over axes 2 and 3 at (b, c): the initial value plus the sum over the 1280 flattened positions. -/
private theorem sum23 (x : S16x128x32x40.Idx → EReal) (init : EReal) (b : Fin 16) (c : Fin 128) :
    Ideal.hostReduceAdd reducesTo_S16x128x32x40_S16x128_d2_3 x init (ix2 b c)
      = init + ∑ q : Fin 1280, x (ix4 b c (Cert.Spec.hOf q) (Cert.Spec.wOf q)) := by
  unfold Ideal.hostReduceAdd
  refine congrArg (fun z => init + z) ?_
  have back : ∀ i : S16x128x32x40.Idx, (i 0 = b ∧ i 1 = c) →
      ix4 b c (Cert.Spec.hOf (Cert.Spec.posOf (i 2) (i 3))) (Cert.Spec.wOf (Cert.Spec.posOf (i 2) (i 3))) = i := by
    rintro i ⟨e0, e1⟩
    refine (congrArg₂ (ix4 b c) (Cert.Spec.hOf_posOf (i 2) (i 3)) (Cert.Spec.wOf_posOf (i 2) (i 3))).trans ?_
    subst e0 e1
    exact (eq_ix4 i).symm
  refine Finset.sum_bij' (fun i _ => Cert.Spec.posOf (i 2) (i 3))
    (fun q _ => ix4 b c (Cert.Spec.hOf q) (Cert.Spec.wOf q))
    (fun _ _ => Finset.mem_univ _)
    (fun q _ => Finset.mem_filter.2 ⟨Finset.mem_univ _, (drop_iff _ b c).2 ⟨rfl, rfl⟩⟩)
    (fun i hi => back i ((drop_iff i b c).1 (Finset.mem_filter.1 hi).2))
    (fun q _ => Cert.Spec.posOf_hOf_wOf q)
    (fun i hi => (congrArg x (back i ((drop_iff i b c).1 (Finset.mem_filter.1 hi).2))).symm)

/-- The host's sum from the zero pattern, at (b, c): the sum over the 1280 flattened positions. -/
private theorem hsum_apply (x : FVec Ideal S16x128x32x40 .f32) (b : Fin 16) (c : Fin 128) :
    Host.reduceAdd x (constant (F := Ideal) S_ .f32 0x00000000#32) reducesTo_S16x128x32x40_S16x128_d2_3 h_S_ (ix2 b c)
      = ∑ q : Fin 1280, x (ix4 b c (Cert.Spec.hOf q) (Cert.Spec.wOf q)) := by
  show Ideal.hostReduceAdd reducesTo_S16x128x32x40_S16x128_d2_3 x (Ideal.ofBits .f32 0x00000000#32) (ix2 b c) = _
  rw [sum23, Ideal.ofBits_zero_f32, zero_add]

/-- The host's quotient at an index. -/
private theorem hdiv_apply {s : Shape} (x y : FVec Ideal s .f32) (i : s.Idx) :
    Host.divf x y i = Ideal.div (x i) (y i) := rfl

/-- The host's reciprocal square root at an index. -/
private theorem hrsqrt_apply {s : Shape} (x : FVec Ideal s .f32) (i : s.Idx) :
    Host.rsqrt x i = Ideal.rsqrt (x i) := rfl

/-! ## The count -/

/-- The pattern of the count denotes the real 1280. -/
private theorem count_eq : Cert.Spec.count = ((1280 : ℝ) : EReal) := by
  unfold Cert.Spec.count
  simp [Ideal.ofBits, Ideal.ieee, -EReal.coe_mul]
  norm_num

/-- The variance's divisor is the count: the correction subtracted from it is the integer zero. -/
private theorem dof_apply (j : S_.Idx) : dof j = Cert.Spec.count := by
  unfold dof
  rw [subf_apply, constant_apply, sitofp_apply]
  show Ideal.ofBits .f32 0x44A00000#32 - (((0#32 : BitVec 32).toInt : ℝ) : EReal) = Cert.Spec.count
  rw [BitVec.toInt_zero]
  simp [Cert.Spec.count]

/-- The guard on a positive divisor holds. -/
private theorem dof_guard (j : S_.Idx) :
    cmpf .ogt dof (constant (F := Ideal) S_ .f32 0x00000000#32) j = 1#1 := by
  rw [cmpf_apply, dof_apply, constant_apply, Ideal.ofBits_zero_f32]
  show Ideal.cmp .ogt Cert.Spec.count 0 = 1#1
  have hpos : (0 : EReal) < Cert.Spec.count := by
    rw [count_eq]; exact_mod_cast (by norm_num : (0 : ℝ) < 1280)
  unfold Ideal.cmp
  simp [hpos]

/-! ## The stages -/

/-- The mean of channel c of batch element b. -/
private theorem meanR_apply (a : FVec Ideal S16x128x32x40 .f32) (b : Fin 16) (c : Fin 128) :
    meanR a (ix4 b c 0 0) = Cert.Spec.mean (Cert.Spec.xAt a b) c := by
  unfold meanR
  rw [hdiv_apply, bc24, bcS, hsum_apply, constant_apply]
  rfl

/-- The deviation from the mean at position 40 * h + w. -/
private theorem centered_apply (a : FVec Ideal S16x128x32x40 .f32) (b : Fin 16) (c : Fin 128) (h : Fin 32) (w : Fin 40) :
    centered a (ix4 b c h w)
      = Cert.Spec.xAt a b c (Cert.Spec.posOf h w) - Cert.Spec.mean (Cert.Spec.xAt a b) c := by
  unfold centered
  rw [subf_apply, bc44, meanR_apply]
  unfold Cert.Spec.xAt
  rw [Cert.Spec.hOf_posOf, Cert.Spec.wOf_posOf]

/-- The biased variance of channel c of batch element b: the guard holds, so the quotient is read. -/
private theorem varR_apply (a : FVec Ideal S16x128x32x40 .f32) (b : Fin 16) (c : Fin 128) :
    varR a (ix4 b c 0 0) = Cert.Spec.var (Cert.Spec.xAt a b) c := by
  unfold varR
  rw [select_apply, bcS, dof_guard, select_one, hdiv_apply, bc24, bcS, hsum_apply, dof_apply]
  unfold Cert.Spec.var
  refine congrArg (fun z => Ideal.div z Cert.Spec.count) ?_
  refine Finset.sum_congr rfl (fun q _ => ?_)
  rw [mulf_apply, centered_apply, Cert.Spec.posOf_hOf_wOf]

theorem tail_apply (a : FVec Ideal S16x128x32x40 .f32) (g bt : FVec Ideal S128 .f32)
    (b : Fin 16) (c : Fin 128) (h : Fin 32) (w : Fin 40) :
    tail a g bt (ix4 b c h w)
      = Cert.Spec.norm (Cert.Spec.xAt a b) (Cert.Spec.gAt g) (Cert.Spec.gAt bt) c (Cert.Spec.posOf h w) := by
  unfold tail
  rw [addf_apply, mulf_apply, mulf_apply, centered_apply, bc44, hrsqrt_apply, addf_apply, varR_apply, bcS,
    constant_apply, bc14, bc11, bc14, bc11]
  rfl

end Cert.RefTerm

end
-- ==== Proof.RefValue.lean ====
/-
  The reference's result is the index-by-index function of the specification: the aggregate read at an index,
  then the normalisation read at an index.
-/
import proofs.«406174_j72584947303115_3_alg».proof.Proof.RefReadAttn
import proofs.«406174_j72584947303115_3_alg».proof.Proof.RefReadTail

noncomputable section

namespace Cert.RefTerm

open Idealize.ShloMosaic Idealize.ShloMosaic.ValueIdx Cert.ReferenceIdeal Cert.ReferenceIdeal.Gen

theorem out_eq (x : FVec Ideal S16x128x32x40 .f32) (p : FVec Ideal S32x40x32x40 .f32) (g bt : FVec Ideal S128 .f32) :
    out x p g bt = Cert.Spec.outR x p g bt := by
  funext i
  -- an index of the rank-4 array is its four coordinates
  obtain ⟨b, c, h, w, rfl⟩ : ∃ b c h w, i = ix4 b c h w := ⟨i 0, i 1, i 2, i 3, eq_ix4 i⟩
  -- the normalisation read at the index, over the aggregate as a channel × position matrix
  unfold out
  rw [tail_apply]
  -- the specification at the same index: its coordinates are b, c, h, w
  show Cert.Spec.norm (Cert.Spec.xAt (agg x p) b) (Cert.Spec.gAt g) (Cert.Spec.gAt bt) c (Cert.Spec.posOf h w)
      = Cert.Spec.norm
          (fun c' q => Cert.Spec.aggR (Cert.Spec.xAt x b) (fun d => Cert.Spec.xAt x b d q) (Cert.Spec.pAt p q) c')
          (Cert.Spec.gAt g) (Cert.Spec.gAt bt) c (Cert.Spec.posOf h w)
  -- the two matrices agree entry by entry: the aggregate read at position q = 40 * (q / 40) + q % 40
  have hA : Cert.Spec.xAt (agg x p) b
      = fun c' q => Cert.Spec.aggR (Cert.Spec.xAt x b) (fun d => Cert.Spec.xAt x b d q) (Cert.Spec.pAt p q) c' := by
    funext c' q
    show agg x p (ix4 b c' (Cert.Spec.hOf q) (Cert.Spec.wOf q)) = _
    rw [agg_apply, Cert.Spec.posOf_hOf_wOf]
  rw [hA]

end Cert.RefTerm

end
-- ==== Proof.Bridge.lean ====
/-
  The kernel's fused weighting and the reference's softmax-then-renormalise weighting are one function
  on finite inputs.
-/
import proofs.«406174_j72584947303115_3_alg».proof.Proof.Spec

noncomputable section

namespace Cert.Spec

open Idealize.ShloMosaic

/-! ## The literals as real numbers -/

/-- The temperature word denotes the rational `3558985 / 262144`. -/
private theorem temp_eq : temp = ((3558985 / 262144 : ℝ) : EReal) := by
  simp [temp, Ideal.ofBits, Ideal.ieee]
  rw [← EReal.coe_mul, EReal.coe_eq_coe_iff]
  norm_num

/-- The initial value of the running maximum is the least extended real. -/
private theorem negInf_eq : negInf = ⊥ := by
  simp [negInf, Ideal.ofBits, Ideal.ieee]

/-- The guard of the renormalisation is some real number. -/
private theorem tiny_real : ∃ t : ℝ, tiny = (t : EReal) := by
  simp [tiny, Ideal.ofBits, Ideal.ieee]
  exact ⟨_, (EReal.coe_mul _ _).symm⟩

/-! ## Finite sums and maxima of reals inside the extended reals -/

/-- The coercion commutes with finite sums. -/
private theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The maximum of finitely many reals over a nonempty index set, started from `⊥`, is one of them. -/
private theorem fold_max_real (f : Fin 1280 → ℝ) :
    ∃ m : ℝ, (Finset.univ : Finset (Fin 1280)).fold max ⊥ (fun j => (f j : EReal)) = (m : EReal) := by
  obtain ⟨i, -, hi⟩ := Finset.exists_mem_eq_sup (Finset.univ : Finset (Fin 1280))
    ⟨0, Finset.mem_univ _⟩ (fun j => (f j : EReal))
  exact ⟨f i, hi⟩

/-- The quotient of two reals: the real quotient off zero, the signed infinity at zero. -/
private theorem div_coe_coe (x y : ℝ) :
    Ideal.div (x : EReal) (y : EReal)
      = if y = 0 then (if 0 < x then ⊤ else ⊥) else ((x / y : ℝ) : EReal) := by
  unfold Ideal.div
  by_cases hy : y = 0
  · subst hy
    simp
  · rw [if_neg (by exact_mod_cast hy), if_neg hy, ← EReal.coe_inv, ← EReal.coe_mul, div_eq_mul_inv]

/-! ## The two weightings -/

/-- With positive reals `e`, reals `p` and a real `t`: weighting `e j * p j` by `∑ e * p + t * ∑ e` is
    weighting `(e j / ∑ e) * p j` by `∑ (e / ∑ e) * p + t`. The second denominator is the first divided
    by the positive `∑ e`, so they vanish together, and the sign of the numerator is the same. -/
private theorem weight_eq {ι : Type*} [Fintype ι] (e p : ι → ℝ) (t : ℝ) (he : ∀ j, 0 < e j) (j : ι) :
    Ideal.div ((e j : EReal) * (p j : EReal))
        ((∑ k, (e k : EReal) * (p k : EReal)) + (t : EReal) * ∑ k, (e k : EReal))
      = Ideal.div (Ideal.div (e j : EReal) (∑ k, (e k : EReal)) * (p j : EReal))
          ((∑ k, Ideal.div (e k : EReal) (∑ k', (e k' : EReal)) * (p k : EReal)) + (t : EReal)) := by
  have hs : 0 < ∑ k, e k := Finset.sum_pos (fun k _ => he k) ⟨j, Finset.mem_univ j⟩
  have hs0 : (∑ k, e k) ≠ 0 := hs.ne'
  have hdiv : ∀ k, Ideal.div (e k : EReal) (∑ k', (e k' : EReal)) = ((e k / ∑ k', e k' : ℝ) : EReal) := by
    intro k
    rw [← coe_sum, div_coe_coe, if_neg hs0]
  simp only [hdiv]
  simp only [← EReal.coe_mul, ← coe_sum, ← EReal.coe_add]
  rw [div_coe_coe, div_coe_coe]
  have hden : (∑ k, e k / (∑ k', e k') * p k) + t = ((∑ k, e k * p k) + t * ∑ k, e k) / ∑ k, e k := by
    rw [add_div, mul_div_assoc, div_self hs0, mul_one, Finset.sum_div]
    congr 1
    apply Finset.sum_congr rfl
    intro k _
    ring
  have hz : ((∑ k, e k / (∑ k', e k') * p k) + t = 0) ↔ ((∑ k, e k * p k) + t * ∑ k, e k = 0) := by
    rw [hden, div_eq_zero_iff]
    simp [hs0]
  by_cases hD : (∑ k, e k * p k) + t * ∑ k, e k = 0
  · rw [if_pos hD, if_pos (hz.mpr hD)]
    have hsgn : (0 < e j / (∑ k', e k') * p j) ↔ (0 < e j * p j) := by
      rw [div_mul_eq_mul_div]
      exact div_pos_iff_of_pos_right hs
    simp only [hsgn]
  · rw [if_neg hD, if_neg (mt hz.mp hD)]
    congr 1
    rw [hden]
    field_simp

/-- For one query row with finite entries the two aggregates agree. -/
theorem aggK_eq_aggR (xa : Fin 128 → Fin 1280 → EReal) (xi : Fin 128 → EReal) (pr : Fin 1280 → EReal)
    (hxa : ∀ c j, ∃ r : ℝ, xa c j = (r : EReal)) (hxi : ∀ c, ∃ r : ℝ, xi c = (r : EReal))
    (hpr : ∀ j, ∃ r : ℝ, pr j = (r : EReal)) (c : Fin 128) :
    aggK xa xi pr c = aggR xa xi pr c := by
  choose xar hxar using hxa
  choose xir hxir using hxi
  choose prr hprr using hpr
  obtain ⟨t, ht⟩ := tiny_real
  -- dividing by the temperature is multiplying by its reciprocal
  have hlog : logitK xa xi = logitR xa xi := by
    funext j
    unfold logitK logitR invTemp
    rw [temp_eq, Ideal.div_coe (by norm_num)]
    congr 2
    norm_num
  have hmax : maxK xa xi = maxR xa xi := by
    unfold maxK maxR
    rw [hlog, negInf_eq]
    exact (bot_sup_eq _).symm
  have hexp : expK xa xi = expR xa xi := by
    funext j
    unfold expK expR
    rw [hlog, hmax]
  -- the similarities, the logits, their maximum and the exponentials are real
  have hsim : ∀ j, sim xa xi j = ((∑ c, xir c * xar c j : ℝ) : EReal) := by
    intro j
    unfold sim
    rw [coe_sum]
    apply Finset.sum_congr rfl
    intro c _
    rw [hxir, hxar, EReal.coe_mul]
  have hl : ∀ j, logitK xa xi j = (((∑ c, xir c * xar c j) * (262144 / 3558985) : ℝ) : EReal) := by
    intro j
    unfold logitK invTemp
    rw [hsim, EReal.coe_mul]
  obtain ⟨m, hm⟩ : ∃ m : ℝ, maxK xa xi = (m : EReal) := by
    unfold maxK
    rw [negInf_eq, funext hl]
    exact fold_max_real _
  have he : ∀ j, expK xa xi j
      = ((Real.exp ((∑ c, xir c * xar c j) * (262144 / 3558985) - m) : ℝ) : EReal) := by
    intro j
    unfold expK
    rw [hl, hm, ← EReal.coe_sub, Ideal.exp_coe]
  -- the weights agree
  have hw : ∀ j, wK xa xi pr j = wR xa xi pr j := by
    intro j
    unfold wK wR denK denR twK w0R attR sumK sumR
    rw [← hexp]
    simp only [he, hprr, ht]
    exact weight_eq (fun j => Real.exp ((∑ c, xir c * xar c j) * (262144 / 3558985) - m)) prr t
      (fun j => Real.exp_pos _) j
  unfold aggK aggR
  apply Finset.sum_congr rfl
  intro j _
  rw [hw, mul_comm]

/-- One batch element. -/
theorem outKb_eq_outRb (xa : Fin 128 → Fin 1280 → EReal) (pa : Fin 1280 → Fin 1280 → EReal) (ga ba : Fin 128 → EReal)
    (hxa : ∀ c j, ∃ r : ℝ, xa c j = (r : EReal)) (hpa : ∀ i j, ∃ r : ℝ, pa i j = (r : EReal)) :
    outKb xa pa ga ba = outRb xa pa ga ba := by
  have h : (fun c' i => aggK xa (fun d => xa d i) (pa i) c')
      = (fun c' i => aggR xa (fun d => xa d i) (pa i) c') := by
    funext c' i
    exact aggK_eq_aggR xa (fun d => xa d i) (pa i) hxa (fun d => hxa d i) (hpa i) c'
  funext c q
  unfold outKb outRb
  rw [h]

/-- The whole arrays. -/
theorem outK_eq_outR (X : SX.Idx → EReal) (P : SP.Idx → EReal) (G B : SG.Idx → EReal)
    (hX : ∀ i, ∃ r : ℝ, X i = (r : EReal)) (hP : ∀ i, ∃ r : ℝ, P i = (r : EReal)) :
    outK X P G B = outR X P G B := by
  funext i
  unfold outK outR
  rw [outKb_eq_outRb (xAt X (i 0)) (pAt P) (gAt G) (gAt B) (fun c j => hX _) (fun a b => hP _)]

end Cert.Spec

end
-- ==== Proof.Finite.lean ====
/-
  The precondition read at an element: every entry of the two float inputs the weighting uses is a real number.
-/
import proofs.«406174_j72584947303115_3_alg».proof.Defs
import proofs.«406174_j72584947303115_3_alg».proof.Proof.Gen.Pre_finite_inputs
import Idealize.ShloMosaic.Lib.ReduceAll

noncomputable section

namespace Cert.Finite

open Idealize.ShloMosaic Idealize.SL.Sem

/-- An extended real whose absolute value `max x (-x)` lies strictly below `⊤` is a real number:
    at `⊥` the negation is `⊤`, at `⊤` the value itself is, and neither is below `⊤`. -/
private theorem exists_real_of_abs_lt_top (x : EReal) (hx : max x (-x) < ⊤) : ∃ r : ℝ, x = (r : EReal) := by
  induction x using EReal.rec with
  | bot => simp at hx
  | coe r => exact ⟨r, rfl⟩
  | top => simp at hx

/-- The word of the ordered comparison `|x| < +∞` being 1 says the extended real `x` is a real number:
    the bit pattern `0x7F800000` is `⊤`, and the comparison word is 1 exactly when the strict inequality holds. -/
private theorem real_of_abs_olt_inf (x : Ideal .f32)
    (e : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [htop] at e'
  refine exists_real_of_abs_lt_top x ?_
  by_contra hn
  simp [Ideal.cmp, hn] at e'

/-- Under the precondition the entries of the first two arguments are finite. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, (m ((c.tc : Thread Cert.KernelIdeal.nD Cert.KernelIdeal.τ).loc Cert.KernelIdeal.main_arg0) :
        Cert.KernelIdeal.S16x128x32x40.Idx → EReal) i = (r : EReal))
    ∧ (∀ i, ∃ r : ℝ, (m ((c.tc : Thread Cert.KernelIdeal.nD Cert.KernelIdeal.τ).loc Cert.KernelIdeal.main_arg1) :
        Cert.KernelIdeal.S32x40x32x40.Idx → EReal) i = (r : EReal)) := by
  -- the precondition's one result word, with the printed chain of operations in view
  have h0 := congrFun (h c) (fun a => a.elim0)
  dsimp only [Cert.Pre_finite_inputs.fn, Cert.Pre_finite_inputs.fn_part1] at h0
  -- the result is a conjunction of four `all`s, nested to the left; the first two are the ones wanted
  obtain ⟨h1, -⟩ := IntOp.andi_eq_one.1 h0
  obtain ⟨h2, -⟩ := IntOp.andi_eq_one.1 h1
  obtain ⟨ha, hb⟩ := IntOp.andi_eq_one.1 h2
  -- a rank-0 shape has a single index, so each `all` speaks of every element of its operand
  haveI : Subsingleton Cert.Pre_finite_inputs.S_.Idx := ⟨fun a b => funext fun d => d.elim0⟩
  refine ⟨fun i => ?_, fun i => ?_⟩
  · exact real_of_abs_olt_inf _ (Host.reduce_andi_all _ _ _ _ _ ha i)
  · exact real_of_abs_olt_inf _ (Host.reduce_andi_all _ _ _ _ _ hb i)

end Cert.Finite

end
-- ==== Proof.lean ====
/-
  The certificate's five claims.

  Both programs compute, for each of 16 batch elements (a 128-channel × 1280-position matrix A) and each
  query position i: similarities s_j = ∑_c A[c,i] A[c,j] scaled by the temperature 1.2·√128, the weights
  w_j ∝ softmax(s)_j · P[i,j] renormalised with a 1e-8 guard, the aggregate ∑_j A[c,j] w_j, and then a
  per-channel normalisation over the 1280 positions with an affine map.

  * The kernel multiplies the similarities by a folded reciprocal of the temperature; the certificate's table
    names that literal the exact reciprocal 262144/3558985 of the f32 temperature 3558985/262144 the reference
    divides by (the five `preserves` conjuncts), so both scale alike.
  * The kernel fuses softmax and renormalisation: with e_j the shifted exponentials and S = ∑ e_j,
    (e_j/S · P_j) / (∑_k e_k/S · P_k + t) = e_j P_j / (∑_k e_k P_k + t S) on finite inputs, S being a positive
    real; where the denominators vanish both quotients are the same signed infinity (or the same junk value).
  * Sums over 1280 positions taken strip by strip (five strips of 256 query rows per grid point) or over the
    32 × 40 map are the same sums; reshapes and transposes only rename indices.

  The kernel's value is read off its frame run (what each grid point writes back, block by block), the
  reference's off its run as a straight line of host operations; the two arrays are then the specification's
  two functions, equal on finite inputs.
-/
import proofs.«406174_j72584947303115_3_alg».proof.Defs
import proofs.«406174_j72584947303115_3_alg».proof.Proof.Gen.Kernel
import proofs.«406174_j72584947303115_3_alg».proof.Proof.Gen.Kernel.Skeleton
import proofs.«406174_j72584947303115_3_alg».proof.Proof.Gen.Kernel.Launch
import proofs.«406174_j72584947303115_3_alg».proof.Proof.Gen.Kernel.Points
import proofs.«406174_j72584947303115_3_alg».proof.Proof.Gen.Kernel.Frame
import proofs.«406174_j72584947303115_3_alg».proof.Proof.Gen.KernelIdeal
import proofs.«406174_j72584947303115_3_alg».proof.Proof.Gen.KernelIdeal.Skeleton
import proofs.«406174_j72584947303115_3_alg».proof.Proof.Gen.KernelIdeal.Launch
import proofs.«406174_j72584947303115_3_alg».proof.Proof.Gen.KernelIdeal.Points
import proofs.«406174_j72584947303115_3_alg».proof.Proof.Gen.KernelIdeal.Frame
import proofs.«406174_j72584947303115_3_alg».proof.Proof.Gen.ReferenceIdeal
import proofs.«406174_j72584947303115_3_alg».proof.Proof.Gen.Pre_finite_inputs
import proofs.«406174_j72584947303115_3_alg».proof.Proof.KRun
import proofs.«406174_j72584947303115_3_alg».proof.Proof.RefRun
import proofs.«406174_j72584947303115_3_alg».proof.Proof.RefValue
import proofs.«406174_j72584947303115_3_alg».proof.Proof.Bridge
import proofs.«406174_j72584947303115_3_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The table gives the named literal the exact reciprocal of the reference's f32 temperature, and the printed
    constant is that value at the ideal instance: one statement, at each of the five strips. -/
theorem named : IdealRules.named_const.Statement Cert.KernelIdeal.κ "inv_temp" .f32 0x3D96D975#32
    ((262144 / 3558985 : ℝ) : EReal) :=
  IdealRules.named_const.statement Cert.KernelIdeal.κ "inv_temp" .f32 0x3D96D975#32 ((262144 / 3558985 : ℝ) : EReal) rfl

theorem preserves : Cert.preserves_Kernel_KernelIdeal := ⟨named, named, named, named, named⟩

/-- From memories agreeing on the arguments both programs end with the same array: the kernel's is the
    specification's fused form, the reference's the softmax form, and the two agree where the inputs are finite. -/
theorem algebraic : Cert.algebraic_KernelIdeal_ReferenceIdeal := by
  intro m ρ m' ρ' hpre hagree
  refine ⟨fun c => Cert.Spec.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3⟩ := hagree c
  obtain ⟨hX, hP⟩ := Cert.Finite.finite_of_pre m hpre c
  rw [e0, e1, e2, e3, Cert.RefTerm.out_eq]
  exact (Cert.Spec.outK_eq_outR _ _ _ _ hX hP).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
